-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x512 .f32) (main_arg1 : FVec F S512 .f32) (main_arg2 : FVec F S512x1 .f32) (main_arg3 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x512 : Shape := ⟨2, ![8192, 512]⟩
abbrev S512 : Shape := ⟨1, ![512]⟩
abbrev S512x1 : Shape := ⟨2, ![512, 1]⟩
abbrev S1 : Shape := ⟨1, ![1]⟩
abbrev S8192x1 : Shape := ⟨2, ![8192, 1]⟩
abbrev S1024x512 : Shape := ⟨2, ![1024, 512]⟩
abbrev S1024x1 : Shape := ⟨2, ![1024, 1]⟩
abbrev S8192x8192 : Shape := ⟨2, ![8192, 8192]⟩
abbrev S1024x1024 : Shape := ⟨2, ![1024, 1024]⟩
abbrev S1x512 : Shape := ⟨2, ![1, 512]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512x1, .f32⟩
  | .hbm, ⟨3, _⟩ => ⟨S1, .f32⟩
  | .hbm, ⟨4, _⟩ => ⟨S8192x1, .f32⟩
  | .hbm, ⟨5, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x1, .f32⟩
  | .local _ .vmem, ⟨3, _⟩ => ⟨S1, .f32⟩
  | .local _ .vmem, ⟨4, _⟩ => ⟨S1024x1, .f32⟩
  | .local _ .vmem, ⟨5, _⟩ => ⟨S1024x1, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S512, .f32⟩
  | .local _ .vmem, ⟨11, _⟩ => ⟨S1024x1, .f32⟩
  | .local _ .vmem, ⟨12, _⟩ => ⟨S1024x1, .f32⟩
  | .local _ .vmem, ⟨13, _⟩ => ⟨S1024x1024, .f32⟩
  | .local _ .vmem, ⟨14, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond1 (i : grid1.Coords) : BitVec 1 :=
  let arg0 : BitVec 32 := BitVec.ofNat 32 (i 0).val
  let arg1 : BitVec 32 := BitVec.ofNat 32 (i 1).val
  let v9 : BitVec 1 := Scalar.cmpi .eq arg0 arg1
  let v10 : BitVec 32 := Scalar.extui v9
  let c0_i32 : BitVec 32 := 0#32
  let v11 : BitVec 1 := Scalar.cmpi .ne v10 c0_i32
  v11

def k1_cond2 (i : grid1.Coords) : BitVec 1 :=
  let arg0 : BitVec 32 := BitVec.ofNat 32 (i 0).val
  let arg1 : BitVec 32 := BitVec.ofNat 32 (i 1).val
  let v12 : BitVec 1 := Scalar.cmpi .ne arg0 arg1
  let v13 : BitVec 32 := Scalar.extui v12
  let c0_i32_4 : BitVec 32 := 0#32
  let v14 : BitVec 1 := Scalar.cmpi .ne v13 c0_i32_4
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  inb_S512x1_S512x1_0_0 : ∀ a, (![0, 0] : Fin 2 → Nat) a + S512x1.size a ≤ S512x1.size a
  h_S512x1 : 0 < S512x1.numel
  bitsLt_bf16_f32 : FTy.bits .bf16 < FTy.bits .f32
  inb_S1_S1_0 : ∀ a, (![0] : Fin 1 → Nat) a + S1.size a ≤ S1.size a
  h_S1 : 0 < S1.numel
  inpos_S1_p0 : ∀ a, (![0] : Fin 1 → Nat) a < S1.size a
  inb_S1024x1_S1024x1_0_0 : ∀ a, (![0, 0] : Fin 2 → Nat) a + S1024x1.size a ≤ S1024x1.size a
  h_S1024x1 : 0 < S1024x1.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  dot_S1024x512_S512x1_S1024x1_1_0_0_1_n_n_wf : DotDims.WF S1024x512 S512x1 S1024x1 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)

variable [Facts₀]

def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond1 i == 1#1) && !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S8192x8192 : Shape := ⟨2, ![8192, 8192]⟩
abbrev S8192x1 : Shape := ⟨2, ![8192, 1]⟩
abbrev S1x1 : Shape := ⟨2, ![1, 1]⟩
abbrev S_ : Shape := ⟨0, ![]⟩
abbrev S8192 : Shape := ⟨1, ![8192]⟩
abbrev S8192x2 : Shape := ⟨2, ![8192, 2]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S512x1, .f32⟩
  | .hbm, ⟨3, _⟩ => ⟨S1, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S8192x8192, .f32⟩
  | .hbm, ⟨8, _⟩ => ⟨S8192x1, .f32⟩
  | .hbm, ⟨9, _⟩ => ⟨S1x1, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .i1⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_1 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  dot_S8192x512_S8192x512_S8192x8192_1_1_0_0_n_n_wf : DotDims.WF S8192x512 S8192x512 S8192x8192 [1] [1] [0] [0] [] []
  dot_S8192x512_S512x1_S8192x1_1_0_0_1_n_n_wf : DotDims.WF S8192x512 S512x1 S8192x1 [1] [0] [0] [1] [] []
  scatter_S8192x8192_S8192x2_S8192_n_01_01_1_wf : ScatterDims.WF S8192x8192 S8192x2 S8192 [] [0, 1] [0, 1] 1

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.FrameK.Data.lean ====
/-
  The proof data of the two kernel regions, at a parameter `V`: the TensorCore's buffer contents when the region is
  entered.

  Region 0 walks the 8 row tiles of `x`: at tile `t` it reads rows `1024 t … 1024 t + 1023` of `x`, all of
  `var_kernel` and `var_bias`, and stores one column of 1024 entries, the tile's diagonal values.
  Region 1 walks the 8 × 8 tiles of the result: at tile `(i, j)` it reads row tile `i` and row tile `j` of `x`
  (two windows over ONE array), all of `cov_kernel`, row tile `i` of the diagonal values, and stores the
  1024 × 1024 block — the weighted Gram block, with its diagonal replaced by the diagonal values exactly when
  `i = j`.
  After the body each input window's staging buffer holds the block it was handed, and the output window's holds
  the one stored value, written here as the canonical form of the store over the loads.
-/
import proofs.«154148_j51350628991246_1_alg».proof.Proof.Gen.Kernel.Launch
import proofs.«154148_j51350628991246_1_alg».proof.Proof.Gen.Kernel.Skeleton
import proofs.«154148_j51350628991246_1_alg».proof.Proof.Gen.Kernel.Points
import Idealize.ShloMosaic.Lib.Pipeline.FrameBody
import Idealize.ShloMosaic.Lib.Pipeline.Frame

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

variable (V : (c : Dev nD) → (b : Ref sig .tc) → Buf (Elt F) ((c : Thread nD τ).loc b))

/-! ## Region 0: the diagonal values, one row tile per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1024x512 := Rect.unit (s := S1024x512) ![0, 0] S1024x512.size inb_S1024x512_S1024x512_0_0
abbrev rVk : Rect S512x1 := Rect.unit (s := S512x1) ![0, 0] S512x1.size inb_S512x1_S512x1_0_0
abbrev rVb : Rect S1 := Rect.unit (s := S1) ![0] S1.size inb_S1_S1_0
abbrev rCol : Rect S1024x1 := Rect.unit (s := S1024x1) ![0, 0] S1024x1.size inb_S1024x1_S1024x1_0_0

/-- What region 0's body leaves in the output window's buffer: its one store, of the softplus column of the loads. -/
def out0_3 (x0 : Vec F S1024x512 .f32) (x1 : Vec F S512x1 .f32) (x2 : Vec F S1 .f32) : Vec F S1024x1 .f32 :=
  View.canon [⟨rCol, k0_pay1 (View.ld x0 rX) (View.ld x1 rVk) (View.ld x2 rVb)⟩]

/-- Region 0's proof data: the arrays as found; inputs left as handed, the output at `out0_3`; the invariant the
    scoped rest and the generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the result, one 1024 × 1024 tile per grid point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rCk : Rect S512 := Rect.unit (s := S512) ![0] S512.size inb_S512_S512_0
abbrev rTile : Rect S1024x1024 := Rect.unit (s := S1024x1024) ![0, 0] S1024x1024.size inb_S1024x1024_S1024x1024_0_0

/-- What region 1's body leaves in the output window's buffer on a diagonal tile: the Gram block with the diagonal
    values selected where row = column. -/
def out1_diag (x0 x1 : Vec F S1024x512 .f32) (x2 : Vec F S512 .f32) (x3 : Vec F S1024x1 .f32) : Vec F S1024x1024 .f32 :=
  View.canon [⟨rTile, k1_pay2 (View.ld x0 rX) (View.ld x1 rX) (View.ld x2 rCk) (View.ld x3 rCol)⟩]

/-- … and off the diagonal: the Gram block. -/
def out1_off (x0 x1 : Vec F S1024x512 .f32) (x2 : Vec F S512 .f32) : Vec F S1024x1024 .f32 :=
  View.canon [⟨rTile, k1_pay1 (View.ld x0 rX) (View.ld x1 rX) (View.ld x2 rCk)⟩]

/-- Region 1's proof data. Windows 0 and 1 read ONE array, `x`: each holds half of it (the left and the right half
    of the full share); the other inputs are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ =>
      if k1_cond1 (grid1.coords t) = 1#1 then out1_diag (iblk1 V c 0 t) (iblk1 V c 1 t) (iblk1 V c 2 t) (iblk1 V c 3 t)
      else out1_off (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t =
      if k1_cond1 (grid1.coords t) = 1#1 then out1_diag (iblk1 V c 0 t) (iblk1 V c 1 t) (iblk1 V c 2 t) (iblk1 V c 3 t)
      else out1_off (iblk1 V c 0 t) (iblk1 V c 1 t) (iblk1 V c 2 t) := by dsimp only [dat1]

/-- On the grid exactly one of the body's two branches runs: the tile is on the diagonal or it is not. -/
theorem cond2_of_not_cond1 : ∀ t : Fin cfg1.N, ¬ k1_cond1 (grid1.coords t) = 1#1 → k1_cond2 (grid1.coords t) = 1#1 :=
  (by decide +kernel : ∀ t : Fin grid1.N, ¬ k1_cond1 (grid1.coords t) = 1#1 → k1_cond2 (grid1.coords t) = 1#1)
theorem not_cond2_of_cond1 : ∀ t : Fin cfg1.N, k1_cond1 (grid1.coords t) = 1#1 → ¬ k1_cond2 (grid1.coords t) = 1#1 :=
  (by decide +kernel : ∀ t : Fin grid1.N, k1_cond1 (grid1.coords t) = 1#1 → ¬ k1_cond2 (grid1.coords t) = 1#1)
/-- So the output window is idle at no point. -/
theorem idle1_4 : ∀ t : Fin cfg1.N, cfg1.idle 4 (cfg1.grid.coords t) = false :=
  (by decide +kernel : ∀ t : Fin grid1.N, idle1 4 (grid1.coords t) = false)

end Cert.Kernel.Frame

end
-- ==== Proof.FrameK.Body0.lean ====
/-
  Region 0's body obligation: at every row tile the body, handed each input window's buffer at its block and the
  output window's at anything, leaves the inputs as handed and the output at its one stored column.
-/
import proofs.«154148_j51350628991246_1_alg».proof.Proof.FrameK.Data
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's buffer holds when the body is called -/

/-- The row tile of `x`: fetched at every point, so its buffer holds the point's block. -/
theorem before0_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- `var_kernel`: fetched at the first point only. Its index map is constant and the body leaves the block in
    place, so at a later point the buffer still holds that same block. -/
theorem before0_vk (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- `var_bias`: likewise. -/
theorem before0_vb (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the output buffer -/

/-- The column store is through the whole-buffer rectangle, so it covers every index. -/
theorem cover_col (p : Vec F S1024x1 .f32) (y : S1024x1.Idx) :
    ∃ pc ∈ ([⟨rCol, p⟩] : List (View.Piece (Elt F) S1024x1 .f32)), y ∈ pc.1.set :=
  View.cover_of_tiled [⟨rCol, p⟩] S1024x1.size (by rfl) y

/-! ## The body's triple -/

set_option maxHeartbeats 1000000 in
/-- The body on whole staging memrefs: the three inputs' at read contents `x0 x1 x2`, the output's at anything.
    It loads the three inputs, loads the output (the value is not used), and stores the softplus column; so it runs
    to the continuation holding the inputs' as they were and the output's at `out0_3 x0 x1 x2`. -/
theorem sound_diag_kernel (c : Dev nD) (E : Set ℕ) (i : grid0.Coords)
    (arg1 : Memref sig .tc .vmem S1024x512 .f32) (harg1 : arg1.IsWhole)
    (arg2 : Memref sig .tc .vmem S512x1 .f32) (harg2 : arg2.IsWhole)
    (arg3 : Memref sig .tc .vmem S1 .f32) (harg3 : arg3.IsWhole)
    (arg4 : Memref sig .tc .vmem S1024x1 .f32) (harg4 : arg4.IsWhole)
    (x0 : Vec F S1024x512 .f32) (x1 : Vec F S512x1 .f32) (x2 : Vec F S1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__diag_kernel i arg1 harg1 arg2 harg2 arg3 harg3 arg4 harg4) K := by
  simp only [cc0__diag_kernel_eq_skeleton]; unfold cc0__diag_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_col _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: each input's memref holds its block, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x, before0_vk, before0_vb]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_diag_kernel c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) :
    BodyObligation (dat0 (F := F) V c) (defs₀ (F := F)) Variants.none () Set.univ := fun t => by
  rw [bigSep_W0, bigSep_W0]
  exact sound_body0 V c t

end Cert.Kernel.Frame

end
-- ==== Proof.FrameK.Body1.lean ====
/-
  Region 1's body obligation: at every tile (i, j) the body, handed each input window's buffer at its block and the
  output window's at anything, leaves the inputs as handed and the output at the Gram block — with the diagonal
  values selected where row = column when i = j. Exactly one of the body's two conditionals runs at each tile.
-/
import proofs.«154148_j51350628991246_1_alg».proof.Proof.FrameK.Data
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds when the body is called

An input window is fetched only where its block index moves; where it is not, its buffer still holds the previous
point's block, which is this point's. The body leaves every input buffer as it found it, so at every point each
input buffer holds the window's block there. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The one store covers the output buffer -/

/-- The body's store is of the whole 1024 × 1024 buffer, so it covers it. -/
theorem cover1_4 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's two triples

The body loads both row tiles and the weight vector, then runs exactly one of two conditionals. -/

set_option maxHeartbeats 1000000 in
/-- On a diagonal tile the first conditional runs: it loads the diagonal values and the output buffer (whose value
    it does not use) and stores the Gram block with the diagonal values selected where row = column; the second
    conditional does not run. -/
theorem sound_kernel1_diag (c : Dev nD) (E : Set ℕ) (i : grid1.Coords) (h1 : k1_cond1 i = 1#1) (h2 : ¬ k1_cond2 i = 1#1)
    (arg2 : Memref sig .tc .vmem S1024x512 .f32) (harg2 : arg2.IsWhole) (arg3 : Memref sig .tc .vmem S1024x512 .f32) (harg3 : arg3.IsWhole)
    (arg4 : Memref sig .tc .vmem S512 .f32) (harg4 : arg4.IsWhole) (arg5 : Memref sig .tc .vmem S1024x1 .f32) (harg5 : arg5.IsWhole)
    (arg6 : Memref sig .tc .vmem S1024x1024 .f32) (harg6 : arg6.IsWhole)
    (x0 x1 : Vec F S1024x512 .f32) (x2 : Vec F S512 .f32) (x3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_diag x0 x1 x2 x3)) -∗ K ⟨⟩))
      ⊢ wp frame (wpE (defs₀ (F := F)) Variants.none c none) E (cc1__cov_kernel i arg2 harg2 arg3 harg3 arg4 harg4 arg5 harg5 arg6 harg6) K := by
  simp only [cc1__cov_kernel_eq_skeleton]; unfold cc1__cov_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

set_option maxHeartbeats 1000000 in
/-- Off the diagonal only the second conditional runs: it loads the output buffer (value unused) and stores the
    Gram block. -/
theorem sound_kernel1_off (c : Dev nD) (E : Set ℕ) (i : grid1.Coords) (h1 : ¬ k1_cond1 i = 1#1) (h2 : k1_cond2 i = 1#1)
    (arg2 : Memref sig .tc .vmem S1024x512 .f32) (harg2 : arg2.IsWhole) (arg3 : Memref sig .tc .vmem S1024x512 .f32) (harg3 : arg3.IsWhole)
    (arg4 : Memref sig .tc .vmem S512 .f32) (harg4 : arg4.IsWhole) (arg5 : Memref sig .tc .vmem S1024x1 .f32) (harg5 : arg5.IsWhole)
    (arg6 : Memref sig .tc .vmem S1024x1024 .f32) (harg6 : arg6.IsWhole)
    (x0 x1 : Vec F S1024x512 .f32) (x2 : Vec F S512 .f32) (x3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_off x0 x1 x2)) -∗ K ⟨⟩))
      ⊢ wp frame (wpE (defs₀ (F := F)) Variants.none c none) E (cc1__cov_kernel i arg2 harg2 arg3 harg3 arg4 harg4 arg5 harg5 arg6 harg6) K := by
  simp only [cc1__cov_kernel_eq_skeleton]; unfold cc1__cov_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`: the invariant, what the core owes, and each window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same invariant and debt, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so one of the two triples applies — the diagonal
    one where the tile's row and column agree, the other elsewhere (there the second conditional's test holds);
    the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  by_cases h1 : k1_cond1 (grid1.coords t) = 1#1
  · rw [if_pos h1]
    iapply (sound_kernel1_diag c Set.univ (grid1.coords t) h1 (not_cond2_of_cond1 t h1) _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [if_neg h1]
    iapply (sound_kernel1_off c Set.univ (grid1.coords t) h1 (cond2_of_not_cond1 t h1) _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point. -/
theorem body_obligation1 (c : Dev nD) :
    BodyObligation (dat1 (F := F) V c) (defs₀ (F := F)) Variants.none () Set.univ := fun t => by
  rw [bigSep_W1, bigSep_W1]
  rw [idle1_4 t]
  exact sound_body1 V c t

end Cert.Kernel.Frame

end
-- ==== Proof.FrameK.Run.lean ====
/-
  The run of @main: two kernel regions, no host operation between them.

  Between the items a core holds every unscoped buffer whole at a known valuation: the launch contents; then, after
  region 0, the diagonal-values array at what its 8 write-backs leave; then, after region 1, the result array at what
  its 64 write-backs leave. Region 0's arrays are distinct buffers, split out of the unscoped buffers at entry and put
  back at exit. Region 1 reads `x` through two windows: at entry `x`'s buffer, held whole, is dealt to them as the
  left and the right half of the full share, and at exit the halves — both still at the launch contents, an input
  array being never written — are joined again.
-/
import proofs.«154148_j51350628991246_1_alg».proof.Proof.FrameK.Body0
import proofs.«154148_j51350628991246_1_alg».proof.Proof.FrameK.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 1's arrays, two of them one buffer -/

section Shared

variable (V : (c : Dev nD) → (b : Ref sig .tc) → Buf (Elt F) ((c : Thread nD τ).loc b))

/-- The distinct buffers behind region 1's five windows: `x`, `cov_kernel`, the diagonal values, the result. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg0) ↦{fullShare} X main_arg0) ∗ (((c : Thread nD τ).loc main_arg1) ↦{fullShare} X main_arg1)
          ∗ (((c : Thread nD τ).loc main_v0) ↦{fullShare} X main_v0) ∗ (((c : Thread nD τ).loc main_v1) ↦{fullShare} X main_v1)) := by
  unfold Pipeline.arrBufs
  exact bigSep_eq_bigSepL_of_eq [main_arg0, main_arg1, main_v0, main_v1] (by decide) (by decide) _

/-- Region 1's arrays window by window: `x` twice, at the two halves of the full share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)
          ∗ (((c : Thread nD τ).loc main_v1) ↦{fullShare} G 4)) := by
  unfold Dat.arrays
  rw [bigSep_W1]
  rw [(arr_whole1 0).set_eq_univ, (arr_whole1 2).set_eq_univ, (arr_whole1 3).set_eq_univ, (arr_whole1 4).set_eq_univ]
  rfl

/-- ENTRY: the buffers behind region 1's arrays, each whole at the entry contents, are its arrays at entry — `x`'s
    buffer dealt to windows 0 and 1 as the two halves of the full share. -/
theorem arrays1_of_arrBufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  have hdeal := (pointsTo_share (ℓ := (c : Thread nD τ).loc main_arg0) (I := Finset.univ) (f := V c main_arg0)
    (Ix := Unit) (Val := Elt F) (Name := ℕ) (U := UR sig nD τ) (Lvl := ℕ) (PosShare.mem_left_op_right fullShare)).1
  iintro ⟨Hx, Hck, Hd, Ho⟩
  ihave Hx' := hdeal $$ Hx
  icases Hx' with ⟨Hl, Hr⟩
  isplitl [Hl]; · iexact Hl
  isplitl [Hr]; · iexact Hr
  isplitl [Hck]; · iexact Hck
  isplitl [Hd]; · iexact Hd
  iexact Ho

/-- EXIT: region 1's arrays at their final contents are the buffers behind them whole at any contents `X` that keep
    the three input buffers as entered and have the result at what the write-backs leave. -/
theorem arrBufs1_of_arrays (c : Dev nD) (X : (b : Ref sig .tc) → Buf (Elt F) ((c : Thread nD τ).loc b))
    (hx : X main_arg0 = V c main_arg0) (hck : X main_arg1 = V c main_arg1) (hd : X main_v0 = V c main_v0)
    (ho : X main_v1 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c X := by
  rw [arrBufs1_eq, arrays1_eq, hx, hck, hd, ho,
    (dat1 V c).arrAt_in 0 rfl, (dat1 V c).arrAt_in 1 rfl, (dat1 V c).arrAt_in 2 rfl, (dat1 V c).arrAt_in 3 rfl,
    A_eq1, A_eq1, A_eq1, A_eq1]
  show iprop((((c : Thread nD τ).loc main_arg0) ↦{fullShare.left} V c main_arg0) ∗ (((c : Thread nD τ).loc main_arg0) ↦{fullShare.right} V c main_arg0)
      ∗ (((c : Thread nD τ).loc main_arg1) ↦{fullShare} V c main_arg1) ∗ (((c : Thread nD τ).loc main_v0) ↦{fullShare} V c main_v0)
      ∗ (((c : Thread nD τ).loc main_v1) ↦{fullShare} (dat1 V c).arrAt 4 cfg1.N)) ⊢ _
  have hjoin := (pointsTo_share (ℓ := (c : Thread nD τ).loc main_arg0) (I := Finset.univ) (f := V c main_arg0)
    (Ix := Unit) (Val := Elt F) (Name := ℕ) (U := UR sig nD τ) (Lvl := ℕ) (PosShare.mem_left_op_right fullShare)).2
  iintro ⟨Hl, Hr, Hck, Hd, Ho⟩
  isplitl [Hl Hr]
  · iapply hjoin
    isplitl [Hl]; · iexact Hl
    iexact Hr
  isplitl [Hck]; · iexact Hck
  isplitl [Hd]; · iexact Hd
  iexact Ho

end Shared

/-! ## The buffer contents at each boundary -/

variable (m : (ℓ : Loc nD τ sig) → Buf (Elt F) ℓ) (ρ : Dev nD → PrngReg)

/-- Core `c`'s buffers at launch: what region 0 is entered from. -/
abbrev B0 : Dev nD → Valuation τ sig (Elt F) := fun c b => m (c, b)
/-- The same read at the TensorCore's references. -/
abbrev E0 : (c : Dev nD) → (b : Ref sig .tc) → Buf (Elt F) ((c : Thread nD τ).loc b) := fun c b => B0 m c b

/-- After region 0: its arrays at what the pipeline leaves (the inputs as entered, the diagonal values' 8 write-backs
    folded), every other buffer as launched. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- What region 1 finds: the arguments as launched, the diagonal values as region 0 left them. -/
theorem E1_arg0 (c : Dev nD) : E1 m c main_arg0 = m ((c : Thread nD τ).loc main_arg0) :=
  (B1_arr m c 0).trans (((dat0 (E0 m) c).arrAt_in 0 rfl _).trans (A_eq0 (E0 m) c 0))
theorem E1_arg1 (c : Dev nD) : E1 m c main_arg1 = m ((c : Thread nD τ).loc main_arg1) :=
  B1_of_ne m c main_arg1 (by decide)
theorem E1_arg2 (c : Dev nD) : E1 m c main_arg2 = m ((c : Thread nD τ).loc main_arg2) :=
  (B1_arr m c 1).trans (((dat0 (E0 m) c).arrAt_in 1 rfl _).trans (A_eq0 (E0 m) c 1))
theorem E1_arg3 (c : Dev nD) : E1 m c main_arg3 = m ((c : Thread nD τ).loc main_arg3) :=
  (B1_arr m c 2).trans (((dat0 (E0 m) c).arrAt_in 2 rfl _).trans (A_eq0 (E0 m) c 2))
theorem E1_v0 (c : Dev nD) : E1 m c main_v0 = (dat0 (E0 m) c).arrAt 3 cfg0.N := B1_arr m c 3

/-- After region 1: the result array at what its 64 write-backs leave, every other buffer as region 1 found it. -/
def B2 (c : Dev nD) : Valuation τ sig (Elt F) :=
  Function.update (B1 m c) (Proc.devRef .tc main_v1) ((dat1 (E1 m) c).arrAt 4 cfg1.N : Buf (Elt F) ((c : Thread nD τ).loc main_v1))
abbrev E2 : (c : Dev nD) → (b : Ref sig .tc) → Buf (Elt F) ((c : Thread nD τ).loc b) := fun c b => B2 m c b
theorem E2_v1 (c : Dev nD) : E2 m c main_v1 = (dat1 (E1 m) c).arrAt 4 cfg1.N := by
  show Function.update (B1 m c) (Proc.devRef .tc main_v1) _ (Proc.devRef .tc main_v1) = _
  rw [Function.update_self]
theorem E2_of_ne (c : Dev nD) (b : Ref sig .tc) (h : b ≠ main_v1) : E2 m c b = E1 m c b := by
  show Function.update (B1 m c) (Proc.devRef .tc main_v1) _ (Proc.devRef .tc b) = _
  rw [Function.update_of_ne (StableHlo.devRef_ne_of_ne h)]
theorem E2_arg0 (c : Dev nD) : E2 m c main_arg0 = m ((c : Thread nD τ).loc main_arg0) := (E2_of_ne m c _ (by decide)).trans (E1_arg0 m c)
theorem E2_arg1 (c : Dev nD) : E2 m c main_arg1 = m ((c : Thread nD τ).loc main_arg1) := (E2_of_ne m c _ (by decide)).trans (E1_arg1 m c)
theorem E2_arg2 (c : Dev nD) : E2 m c main_arg2 = m ((c : Thread nD τ).loc main_arg2) := (E2_of_ne m c _ (by decide)).trans (E1_arg2 m c)
theorem E2_arg3 (c : Dev nD) : E2 m c main_arg3 = m ((c : Thread nD τ).loc main_arg3) := (E2_of_ne m c _ (by decide)).trans (E1_arg3 m c)

/-- A core's unscoped buffers at contents `X` are the buffers behind region 1's arrays and the rest. -/
theorem unscopedBufs_split1 (c : Dev nD) (X : (b : Ref sig .tc) → Buf (Elt F) ((c : Thread nD τ).loc b)) :
    (unscopedBufs c X : sProp 𝕄)
      = iprop((Pipeline.arrBufs (Ix := Unit) (Name := ℕ) (U := UR sig nD τ) (Lvl := ℕ) spec1 c X : sProp 𝕄)
          ∗ Pipeline.unscopedRest (Ix := Unit) (Name := ℕ) (U := UR sig nD τ) (Lvl := ℕ) spec1 c X) :=
  Pipeline.PerCore.unscopedBufs_split₀ (fun _ : Dev nD => cfgs) 1 c winFacts₀1.arr_unscoped X

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B2 m c) ∗ ∃ r, prngReg c r)

/-! ## The regions as segments -/

set_option backward.isDefEq.respectTransparency.types false in
/-- REGION 0 over the thread state: entered from every unscoped buffer at launch contents, left with the diagonal
    values written. Its arrays, distinct buffers, are split out of the unscoped buffers and put back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from what region 0 left, left with the result written. The buffers behind
    its arrays are split out of the unscoped buffers, `x`'s dealt to its two windows by halves, and joined back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄)
        ⊢ iprop((pdats m 1 c).arrays ((pdats m 1 c).arrAt · 0)
            ∗ Pipeline.unscopedRest (Ix := Unit) (Name := ℕ) (U := UR sig nD τ) (Lvl := ℕ) spec1 c (E1 m c)) := by
      rw [unscopedBufs_split1]
      exact sep_mono (arrays1_of_arrBufs (E1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E1 m c))
        ⊢ (unscopedBufs c (E2 m c) : sProp 𝕄) := by
      rw [unscopedBufs_split1 c (E2 m c)]
      refine sep_mono (arrBufs1_of_arrays (E1 m) c (E2 m c) (E2_of_ne m c _ (by decide)) (E2_of_ne m c _ (by decide))
        (E2_of_ne m c _ (by decide)) (E2_v1 m c)) (Entails.of_eq ?_)
      unfold Pipeline.unscopedRest
      exact bigSep_congr fun b hb => by
        rw [E2_of_ne m c b (fun e => (Finset.mem_sdiff.mp hb).2 (by rw [e]; decide))]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order: the two kernel regions. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state every unscoped buffer holds the last boundary's contents: the
    arguments as launched, the result at what region 1's write-backs leave. -/
theorem run_main : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = E2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c b hb => h c _ (mem_uc b hb))

end Cert.Kernel.Frame

end
-- ==== Proof.FrameK.Frame.lean ====
/-
  The frame conjunct: @main runs to the end, faults nowhere, and every argument array ends as launched — read off the
  run, whose last boundary keeps each argument at its launch contents (no region writes one).
-/
import proofs.«154148_j51350628991246_1_alg».proof.Proof.FrameK.Run

noncomputable section

namespace Cert.Kernel.Frame

open Idealize.ShloMosaic Idealize.ShloMosaic.TcCoe Idealize.SL.Sem
open Cert.Kernel Cert.Kernel.Gen

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_arg0 (by decide)).trans (E2_arg0 m c), (h c main_arg1 (by decide)).trans (E2_arg1 m c),
     (h c main_arg2 (by decide)).trans (E2_arg2 m c), (h c main_arg3 (by decide)).trans (E2_arg3 m c)⟩) (run_main m ρ)

end Cert.Kernel.Frame

end
-- ==== Proof.FrameKI.Data.lean ====
/-
  The proof data of the two kernel regions, at a parameter `V`: the TensorCore's buffer contents when the region is
  entered.

  Region 0 walks the 8 row tiles of `x`: at tile `t` it reads rows `1024 t … 1024 t + 1023` of `x`, all of
  `var_kernel` and `var_bias`, and stores one column of 1024 entries, the tile's diagonal values.
  Region 1 walks the 8 × 8 tiles of the result: at tile `(i, j)` it reads row tile `i` and row tile `j` of `x`
  (two windows over ONE array), all of `cov_kernel`, row tile `i` of the diagonal values, and stores the
  1024 × 1024 block — the weighted Gram block, with its diagonal replaced by the diagonal values exactly when
  `i = j`.
  After the body each input window's staging buffer holds the block it was handed, and the output window's holds
  the one stored value, written here as the canonical form of the store over the loads.
-/
import proofs.«154148_j51350628991246_1_alg».proof.Proof.Gen.KernelIdeal.Launch
import proofs.«154148_j51350628991246_1_alg».proof.Proof.Gen.KernelIdeal.Skeleton
import proofs.«154148_j51350628991246_1_alg».proof.Proof.Gen.KernelIdeal.Points
import Idealize.ShloMosaic.Lib.Pipeline.FrameBody
import Idealize.ShloMosaic.Lib.Pipeline.Frame

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-! ## Region 0: the diagonal values, one row tile per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1024x512 := Rect.unit (s := S1024x512) ![0, 0] S1024x512.size inb_S1024x512_S1024x512_0_0
abbrev rVk : Rect S512x1 := Rect.unit (s := S512x1) ![0, 0] S512x1.size inb_S512x1_S512x1_0_0
abbrev rVb : Rect S1 := Rect.unit (s := S1) ![0] S1.size inb_S1_S1_0
abbrev rCol : Rect S1024x1 := Rect.unit (s := S1024x1) ![0, 0] S1024x1.size inb_S1024x1_S1024x1_0_0

/-- What region 0's body leaves in the output window's buffer: its one store, of the softplus column of the loads. -/
def out0_3 (x0 : Vec F S1024x512 .f32) (x1 : Vec F S512x1 .f32) (x2 : Vec F S1 .f32) : Vec F S1024x1 .f32 :=
  View.canon [⟨rCol, k0_pay1 (View.ld x0 rX) (View.ld x1 rVk) (View.ld x2 rVb)⟩]

/-- Region 0's proof data: the arrays as found; inputs left as handed, the output at `out0_3`; the invariant the
    scoped rest and the generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the result, one 1024 × 1024 tile per grid point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rCk : Rect S512 := Rect.unit (s := S512) ![0] S512.size inb_S512_S512_0
abbrev rTile : Rect S1024x1024 := Rect.unit (s := S1024x1024) ![0, 0] S1024x1024.size inb_S1024x1024_S1024x1024_0_0

/-- What region 1's body leaves in the output window's buffer on a diagonal tile: the Gram block with the diagonal
    values selected where row = column. -/
def out1_diag (x0 x1 : Vec F S1024x512 .f32) (x2 : Vec F S512 .f32) (x3 : Vec F S1024x1 .f32) : Vec F S1024x1024 .f32 :=
  View.canon [⟨rTile, k1_pay2 (View.ld x0 rX) (View.ld x1 rX) (View.ld x2 rCk) (View.ld x3 rCol)⟩]

/-- … and off the diagonal: the Gram block. -/
def out1_off (x0 x1 : Vec F S1024x512 .f32) (x2 : Vec F S512 .f32) : Vec F S1024x1024 .f32 :=
  View.canon [⟨rTile, k1_pay1 (View.ld x0 rX) (View.ld x1 rX) (View.ld x2 rCk)⟩]

/-- Region 1's proof data. Windows 0 and 1 read ONE array, `x`: each holds half of it (the left and the right half
    of the full share); the other inputs are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ =>
      if k1_cond1 (grid1.coords t) = 1#1 then out1_diag (iblk1 V c 0 t) (iblk1 V c 1 t) (iblk1 V c 2 t) (iblk1 V c 3 t)
      else out1_off (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t =
      if k1_cond1 (grid1.coords t) = 1#1 then out1_diag (iblk1 V c 0 t) (iblk1 V c 1 t) (iblk1 V c 2 t) (iblk1 V c 3 t)
      else out1_off (iblk1 V c 0 t) (iblk1 V c 1 t) (iblk1 V c 2 t) := by dsimp only [dat1]

/-- On the grid exactly one of the body's two branches runs: the tile is on the diagonal or it is not. -/
theorem cond2_of_not_cond1 : ∀ t : Fin cfg1.N, ¬ k1_cond1 (grid1.coords t) = 1#1 → k1_cond2 (grid1.coords t) = 1#1 :=
  (by decide +kernel : ∀ t : Fin grid1.N, ¬ k1_cond1 (grid1.coords t) = 1#1 → k1_cond2 (grid1.coords t) = 1#1)
theorem not_cond2_of_cond1 : ∀ t : Fin cfg1.N, k1_cond1 (grid1.coords t) = 1#1 → ¬ k1_cond2 (grid1.coords t) = 1#1 :=
  (by decide +kernel : ∀ t : Fin grid1.N, k1_cond1 (grid1.coords t) = 1#1 → ¬ k1_cond2 (grid1.coords t) = 1#1)
/-- So the output window is idle at no point. -/
theorem idle1_4 : ∀ t : Fin cfg1.N, cfg1.idle 4 (cfg1.grid.coords t) = false :=
  (by decide +kernel : ∀ t : Fin grid1.N, idle1 4 (grid1.coords t) = false)

end Cert.KernelIdeal.Frame

end
-- ==== Proof.FrameKI.Body0.lean ====
/-
  Region 0's body obligation: at every row tile the body, handed each input window's buffer at its block and the
  output window's at anything, leaves the inputs as handed and the output at its one stored column.
-/
import proofs.«154148_j51350628991246_1_alg».proof.Proof.FrameKI.Data
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's buffer holds when the body is called -/

/-- The row tile of `x`: fetched at every point, so its buffer holds the point's block. -/
theorem before0_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- `var_kernel`: fetched at the first point only. Its index map is constant and the body leaves the block in
    place, so at a later point the buffer still holds that same block. -/
theorem before0_vk (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- `var_bias`: likewise. -/
theorem before0_vb (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the output buffer -/

/-- The column store is through the whole-buffer rectangle, so it covers every index. -/
theorem cover_col (p : Vec F S1024x1 .f32) (y : S1024x1.Idx) :
    ∃ pc ∈ ([⟨rCol, p⟩] : List (View.Piece (Elt F) S1024x1 .f32)), y ∈ pc.1.set :=
  View.cover_of_tiled [⟨rCol, p⟩] S1024x1.size (by rfl) y

/-! ## The body's triple -/

set_option maxHeartbeats 1000000 in
/-- The body on whole staging memrefs: the three inputs' at read contents `x0 x1 x2`, the output's at anything.
    It loads the three inputs, loads the output (the value is not used), and stores the softplus column; so it runs
    to the continuation holding the inputs' as they were and the output's at `out0_3 x0 x1 x2`. -/
theorem sound_diag_kernel (c : Dev nD) (E : Set ℕ) (i : grid0.Coords)
    (arg1 : Memref sig .tc .vmem S1024x512 .f32) (harg1 : arg1.IsWhole)
    (arg2 : Memref sig .tc .vmem S512x1 .f32) (harg2 : arg2.IsWhole)
    (arg3 : Memref sig .tc .vmem S1 .f32) (harg3 : arg3.IsWhole)
    (arg4 : Memref sig .tc .vmem S1024x1 .f32) (harg4 : arg4.IsWhole)
    (x0 : Vec F S1024x512 .f32) (x1 : Vec F S512x1 .f32) (x2 : Vec F S1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__diag_kernel i arg1 harg1 arg2 harg2 arg3 harg3 arg4 harg4) K := by
  simp only [cc0__diag_kernel_eq_skeleton]; unfold cc0__diag_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_col _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: each input's memref holds its block, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x, before0_vk, before0_vb]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_diag_kernel c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Frame

end
-- ==== Proof.FrameKI.Body1.lean ====
/-
  Region 1's body obligation: at every tile (i, j) the body, handed each input window's buffer at its block and the
  output window's at anything, leaves the inputs as handed and the output at the Gram block — with the diagonal
  values selected where row = column when i = j. Exactly one of the body's two conditionals runs at each tile.
-/
import proofs.«154148_j51350628991246_1_alg».proof.Proof.FrameKI.Data
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds when the body is called

An input window is fetched only where its block index moves; where it is not, its buffer still holds the previous
point's block, which is this point's. The body leaves every input buffer as it found it, so at every point each
input buffer holds the window's block there. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The one store covers the output buffer -/

/-- The body's store is of the whole 1024 × 1024 buffer, so it covers it. -/
theorem cover1_4 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's two triples

The body loads both row tiles and the weight vector, then runs exactly one of two conditionals. -/

set_option maxHeartbeats 1000000 in
/-- On a diagonal tile the first conditional runs: it loads the diagonal values and the output buffer (whose value
    it does not use) and stores the Gram block with the diagonal values selected where row = column; the second
    conditional does not run. -/
theorem sound_kernel1_diag (c : Dev nD) (E : Set ℕ) (i : grid1.Coords) (h1 : k1_cond1 i = 1#1) (h2 : ¬ k1_cond2 i = 1#1)
    (arg2 : Memref sig .tc .vmem S1024x512 .f32) (harg2 : arg2.IsWhole) (arg3 : Memref sig .tc .vmem S1024x512 .f32) (harg3 : arg3.IsWhole)
    (arg4 : Memref sig .tc .vmem S512 .f32) (harg4 : arg4.IsWhole) (arg5 : Memref sig .tc .vmem S1024x1 .f32) (harg5 : arg5.IsWhole)
    (arg6 : Memref sig .tc .vmem S1024x1024 .f32) (harg6 : arg6.IsWhole)
    (x0 x1 : Vec F S1024x512 .f32) (x2 : Vec F S512 .f32) (x3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_diag x0 x1 x2 x3)) -∗ K ⟨⟩))
      ⊢ wp frame (wpE (defs₀ (F := F)) Variants.none c none) E (cc1__cov_kernel i arg2 harg2 arg3 harg3 arg4 harg4 arg5 harg5 arg6 harg6) K := by
  simp only [cc1__cov_kernel_eq_skeleton]; unfold cc1__cov_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

set_option maxHeartbeats 1000000 in
/-- Off the diagonal only the second conditional runs: it loads the output buffer (value unused) and stores the
    Gram block. -/
theorem sound_kernel1_off (c : Dev nD) (E : Set ℕ) (i : grid1.Coords) (h1 : ¬ k1_cond1 i = 1#1) (h2 : k1_cond2 i = 1#1)
    (arg2 : Memref sig .tc .vmem S1024x512 .f32) (harg2 : arg2.IsWhole) (arg3 : Memref sig .tc .vmem S1024x512 .f32) (harg3 : arg3.IsWhole)
    (arg4 : Memref sig .tc .vmem S512 .f32) (harg4 : arg4.IsWhole) (arg5 : Memref sig .tc .vmem S1024x1 .f32) (harg5 : arg5.IsWhole)
    (arg6 : Memref sig .tc .vmem S1024x1024 .f32) (harg6 : arg6.IsWhole)
    (x0 x1 : Vec F S1024x512 .f32) (x2 : Vec F S512 .f32) (x3 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_off x0 x1 x2)) -∗ K ⟨⟩))
      ⊢ wp frame (wpE (defs₀ (F := F)) Variants.none c none) E (cc1__cov_kernel i arg2 harg2 arg3 harg3 arg4 harg4 arg5 harg5 arg6 harg6) K := by
  simp only [cc1__cov_kernel_eq_skeleton]; unfold cc1__cov_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`: the invariant, what the core owes, and each window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same invariant and debt, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so one of the two triples applies — the diagonal
    one where the tile's row and column agree, the other elsewhere (there the second conditional's test holds);
    the invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  by_cases h1 : k1_cond1 (grid1.coords t) = 1#1
  · rw [if_pos h1]
    iapply (sound_kernel1_diag c Set.univ (grid1.coords t) h1 (not_cond2_of_cond1 t h1) _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [if_neg h1]
    iapply (sound_kernel1_off c Set.univ (grid1.coords t) h1 (cond2_of_not_cond1 t h1) _ _ _ _ _ _ _ _ _ _
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point. -/
theorem body_obligation1 (c : Dev nD) :
    BodyObligation (dat1 (F := F) V c) (defs₀ (F := F)) Variants.none () Set.univ := fun t => by
  rw [bigSep_W1, bigSep_W1]
  rw [idle1_4 t]
  exact sound_body1 V c t

end Cert.KernelIdeal.Frame

end
-- ==== Proof.FrameKI.Run.lean ====
/-
  The run of @main: two kernel regions, no host operation between them.

  Between the items a core holds every unscoped buffer whole at a known valuation: the launch contents; then, after
  region 0, the diagonal-values array at what its 8 write-backs leave; then, after region 1, the result array at what
  its 64 write-backs leave. Region 0's arrays are distinct buffers, split out of the unscoped buffers at entry and put
  back at exit. Region 1 reads `x` through two windows: at entry `x`'s buffer, held whole, is dealt to them as the
  left and the right half of the full share, and at exit the halves — both still at the launch contents, an input
  array being never written — are joined again.
-/
import proofs.«154148_j51350628991246_1_alg».proof.Proof.FrameKI.Body0
import proofs.«154148_j51350628991246_1_alg».proof.Proof.FrameKI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 1's arrays, two of them one buffer -/

section Shared

variable (V : (c : Dev nD) → (b : Ref sig .tc) → Buf (Elt F) ((c : Thread nD τ).loc b))

/-- The distinct buffers behind region 1's five windows: `x`, `cov_kernel`, the diagonal values, the result. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg0) ↦{fullShare} X main_arg0) ∗ (((c : Thread nD τ).loc main_arg1) ↦{fullShare} X main_arg1)
          ∗ (((c : Thread nD τ).loc main_v0) ↦{fullShare} X main_v0) ∗ (((c : Thread nD τ).loc main_v1) ↦{fullShare} X main_v1)) := by
  unfold Pipeline.arrBufs
  exact bigSep_eq_bigSepL_of_eq [main_arg0, main_arg1, main_v0, main_v1] (by decide) (by decide) _

/-- Region 1's arrays window by window: `x` twice, at the two halves of the full share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)
          ∗ (((c : Thread nD τ).loc main_v1) ↦{fullShare} G 4)) := by
  unfold Dat.arrays
  rw [bigSep_W1]
  rw [(arr_whole1 0).set_eq_univ, (arr_whole1 2).set_eq_univ, (arr_whole1 3).set_eq_univ, (arr_whole1 4).set_eq_univ]
  rfl

/-- ENTRY: the buffers behind region 1's arrays, each whole at the entry contents, are its arrays at entry — `x`'s
    buffer dealt to windows 0 and 1 as the two halves of the full share. -/
theorem arrays1_of_arrBufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  have hdeal := (pointsTo_share (ℓ := (c : Thread nD τ).loc main_arg0) (I := Finset.univ) (f := V c main_arg0)
    (Ix := Unit) (Val := Elt F) (Name := ℕ) (U := UR sig nD τ) (Lvl := ℕ) (PosShare.mem_left_op_right fullShare)).1
  iintro ⟨Hx, Hck, Hd, Ho⟩
  ihave Hx' := hdeal $$ Hx
  icases Hx' with ⟨Hl, Hr⟩
  isplitl [Hl]; · iexact Hl
  isplitl [Hr]; · iexact Hr
  isplitl [Hck]; · iexact Hck
  isplitl [Hd]; · iexact Hd
  iexact Ho

/-- EXIT: region 1's arrays at their final contents are the buffers behind them whole at any contents `X` that keep
    the three input buffers as entered and have the result at what the write-backs leave. -/
theorem arrBufs1_of_arrays (c : Dev nD) (X : (b : Ref sig .tc) → Buf (Elt F) ((c : Thread nD τ).loc b))
    (hx : X main_arg0 = V c main_arg0) (hck : X main_arg1 = V c main_arg1) (hd : X main_v0 = V c main_v0)
    (ho : X main_v1 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c X := by
  rw [arrBufs1_eq, arrays1_eq, hx, hck, hd, ho,
    (dat1 V c).arrAt_in 0 rfl, (dat1 V c).arrAt_in 1 rfl, (dat1 V c).arrAt_in 2 rfl, (dat1 V c).arrAt_in 3 rfl,
    A_eq1, A_eq1, A_eq1, A_eq1]
  show iprop((((c : Thread nD τ).loc main_arg0) ↦{fullShare.left} V c main_arg0) ∗ (((c : Thread nD τ).loc main_arg0) ↦{fullShare.right} V c main_arg0)
      ∗ (((c : Thread nD τ).loc main_arg1) ↦{fullShare} V c main_arg1) ∗ (((c : Thread nD τ).loc main_v0) ↦{fullShare} V c main_v0)
      ∗ (((c : Thread nD τ).loc main_v1) ↦{fullShare} (dat1 V c).arrAt 4 cfg1.N)) ⊢ _
  have hjoin := (pointsTo_share (ℓ := (c : Thread nD τ).loc main_arg0) (I := Finset.univ) (f := V c main_arg0)
    (Ix := Unit) (Val := Elt F) (Name := ℕ) (U := UR sig nD τ) (Lvl := ℕ) (PosShare.mem_left_op_right fullShare)).2
  iintro ⟨Hl, Hr, Hck, Hd, Ho⟩
  isplitl [Hl Hr]
  · iapply hjoin
    isplitl [Hl]; · iexact Hl
    iexact Hr
  isplitl [Hck]; · iexact Hck
  isplitl [Hd]; · iexact Hd
  iexact Ho

end Shared

/-! ## The buffer contents at each boundary -/

variable (m : (ℓ : Loc nD τ sig) → Buf (Elt F) ℓ) (ρ : Dev nD → PrngReg)

/-- Core `c`'s buffers at launch: what region 0 is entered from. -/
abbrev B0 : Dev nD → Valuation τ sig (Elt F) := fun c b => m (c, b)
/-- The same read at the TensorCore's references. -/
abbrev E0 : (c : Dev nD) → (b : Ref sig .tc) → Buf (Elt F) ((c : Thread nD τ).loc b) := fun c b => B0 m c b

/-- After region 0: its arrays at what the pipeline leaves (the inputs as entered, the diagonal values' 8 write-backs
    folded), every other buffer as launched. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- What region 1 finds: the arguments as launched, the diagonal values as region 0 left them. -/
theorem E1_arg0 (c : Dev nD) : E1 m c main_arg0 = m ((c : Thread nD τ).loc main_arg0) :=
  (B1_arr m c 0).trans (((dat0 (E0 m) c).arrAt_in 0 rfl _).trans (A_eq0 (E0 m) c 0))
theorem E1_arg1 (c : Dev nD) : E1 m c main_arg1 = m ((c : Thread nD τ).loc main_arg1) :=
  B1_of_ne m c main_arg1 (by decide)
theorem E1_arg2 (c : Dev nD) : E1 m c main_arg2 = m ((c : Thread nD τ).loc main_arg2) :=
  (B1_arr m c 1).trans (((dat0 (E0 m) c).arrAt_in 1 rfl _).trans (A_eq0 (E0 m) c 1))
theorem E1_arg3 (c : Dev nD) : E1 m c main_arg3 = m ((c : Thread nD τ).loc main_arg3) :=
  (B1_arr m c 2).trans (((dat0 (E0 m) c).arrAt_in 2 rfl _).trans (A_eq0 (E0 m) c 2))
theorem E1_v0 (c : Dev nD) : E1 m c main_v0 = (dat0 (E0 m) c).arrAt 3 cfg0.N := B1_arr m c 3

/-- After region 1: the result array at what its 64 write-backs leave, every other buffer as region 1 found it. -/
def B2 (c : Dev nD) : Valuation τ sig (Elt F) :=
  Function.update (B1 m c) (Proc.devRef .tc main_v1) ((dat1 (E1 m) c).arrAt 4 cfg1.N : Buf (Elt F) ((c : Thread nD τ).loc main_v1))
abbrev E2 : (c : Dev nD) → (b : Ref sig .tc) → Buf (Elt F) ((c : Thread nD τ).loc b) := fun c b => B2 m c b
theorem E2_v1 (c : Dev nD) : E2 m c main_v1 = (dat1 (E1 m) c).arrAt 4 cfg1.N := by
  show Function.update (B1 m c) (Proc.devRef .tc main_v1) _ (Proc.devRef .tc main_v1) = _
  rw [Function.update_self]
theorem E2_of_ne (c : Dev nD) (b : Ref sig .tc) (h : b ≠ main_v1) : E2 m c b = E1 m c b := by
  show Function.update (B1 m c) (Proc.devRef .tc main_v1) _ (Proc.devRef .tc b) = _
  rw [Function.update_of_ne (StableHlo.devRef_ne_of_ne h)]
theorem E2_arg0 (c : Dev nD) : E2 m c main_arg0 = m ((c : Thread nD τ).loc main_arg0) := (E2_of_ne m c _ (by decide)).trans (E1_arg0 m c)
theorem E2_arg1 (c : Dev nD) : E2 m c main_arg1 = m ((c : Thread nD τ).loc main_arg1) := (E2_of_ne m c _ (by decide)).trans (E1_arg1 m c)
theorem E2_arg2 (c : Dev nD) : E2 m c main_arg2 = m ((c : Thread nD τ).loc main_arg2) := (E2_of_ne m c _ (by decide)).trans (E1_arg2 m c)
theorem E2_arg3 (c : Dev nD) : E2 m c main_arg3 = m ((c : Thread nD τ).loc main_arg3) := (E2_of_ne m c _ (by decide)).trans (E1_arg3 m c)

/-- A core's unscoped buffers at contents `X` are the buffers behind region 1's arrays and the rest. -/
theorem unscopedBufs_split1 (c : Dev nD) (X : (b : Ref sig .tc) → Buf (Elt F) ((c : Thread nD τ).loc b)) :
    (unscopedBufs c X : sProp 𝕄)
      = iprop((Pipeline.arrBufs (Ix := Unit) (Name := ℕ) (U := UR sig nD τ) (Lvl := ℕ) spec1 c X : sProp 𝕄)
          ∗ Pipeline.unscopedRest (Ix := Unit) (Name := ℕ) (U := UR sig nD τ) (Lvl := ℕ) spec1 c X) :=
  Pipeline.PerCore.unscopedBufs_split₀ (fun _ : Dev nD => cfgs) 1 c winFacts₀1.arr_unscoped X

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B2 m c) ∗ ∃ r, prngReg c r)

/-! ## The regions as segments -/

set_option backward.isDefEq.respectTransparency.types false in
/-- REGION 0 over the thread state: entered from every unscoped buffer at launch contents, left with the diagonal
    values written. Its arrays, distinct buffers, are split out of the unscoped buffers and put back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from what region 0 left, left with the result written. The buffers behind
    its arrays are split out of the unscoped buffers, `x`'s dealt to its two windows by halves, and joined back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄)
        ⊢ iprop((pdats m 1 c).arrays ((pdats m 1 c).arrAt · 0)
            ∗ Pipeline.unscopedRest (Ix := Unit) (Name := ℕ) (U := UR sig nD τ) (Lvl := ℕ) spec1 c (E1 m c)) := by
      rw [unscopedBufs_split1]
      exact sep_mono (arrays1_of_arrBufs (E1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E1 m c))
        ⊢ (unscopedBufs c (E2 m c) : sProp 𝕄) := by
      rw [unscopedBufs_split1 c (E2 m c)]
      refine sep_mono (arrBufs1_of_arrays (E1 m) c (E2 m c) (E2_of_ne m c _ (by decide)) (E2_of_ne m c _ (by decide))
        (E2_of_ne m c _ (by decide)) (E2_v1 m c)) (Entails.of_eq ?_)
      unfold Pipeline.unscopedRest
      exact bigSep_congr fun b hb => by
        rw [E2_of_ne m c b (fun e => (Finset.mem_sdiff.mp hb).2 (by rw [e]; decide))]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order: the two kernel regions. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state every unscoped buffer holds the last boundary's contents: the
    arguments as launched, the result at what region 1's write-backs leave. -/
theorem run_main : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = E2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c b hb => h c _ (mem_uc b hb))

end Cert.KernelIdeal.Frame

end
-- ==== Proof.FrameKI.Frame.lean ====
/-
  The frame conjunct: @main runs to the end, faults nowhere, and every argument array ends as launched — read off the
  run, whose last boundary keeps each argument at its launch contents (no region writes one).
-/
import proofs.«154148_j51350628991246_1_alg».proof.Proof.FrameKI.Run

noncomputable section

namespace Cert.KernelIdeal.Frame

open Idealize.ShloMosaic Idealize.ShloMosaic.TcCoe Idealize.SL.Sem
open Cert.KernelIdeal Cert.KernelIdeal.Gen

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_arg0 (by decide)).trans (E2_arg0 m c), (h c main_arg1 (by decide)).trans (E2_arg1 m c),
     (h c main_arg2 (by decide)).trans (E2_arg2 m c), (h c main_arg3 (by decide)).trans (E2_arg3 m c)⟩) (run_main m ρ)

end Cert.KernelIdeal.Frame

end
-- ==== Proof.Spec.lean ====
/-
  The specification: what both programs compute, entry by entry, on the extended reals.

  With `a r = (∑ k, x[r,k] · var_kernel[k,0]) + var_bias[0]`, the diagonal value of row `r` is
  `softplus (a r) + c`, where `softplus a = max a 0 + log1p (exp (-|a|))` is the numerically stable form both
  programs spell (`|a| = max a (-a)`) and `c` is the shared single-precision literal nearest 1e-8. Off the diagonal
  the entry `(r, s)` is the weighted Gram sum `∑ k, (x[r,k] · cov_kernel[k]) · x[s,k]`, the factors in that order on
  both sides, so no law of the extended reals beyond the definitions is needed.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![8192, 512]⟩
abbrev SCk : Shape := ⟨1, ![512]⟩
abbrev SVk : Shape := ⟨2, ![512, 1]⟩
abbrev SVb : Shape := ⟨1, ![1]⟩
abbrev SD : Shape := ⟨2, ![8192, 1]⟩
abbrev SOut : Shape := ⟨2, ![8192, 8192]⟩

/-- The stable softplus plus the shared literal, on the extended reals. -/
def sp (a : EReal) : EReal :=
  max a 0 + Ideal.log1p (Ideal.exp (-(max a (-a)))) + Ideal.ofBits .f32 0x322BCC77#32

/-- Row `r`'s pre-activation: its product with `var_kernel`'s one column, plus the bias. -/
def pre (x : FVec Ideal SX .f32) (vk : FVec Ideal SVk .f32) (vb : FVec Ideal SVb .f32) (r : Fin 8192) : EReal :=
  (∑ k : Fin 512, x (ix2 r k) * vk (ix2 k (0 : Fin 1))) + vb (ix1 (0 : Fin 1))

/-- Row `r`'s diagonal value. -/
def dval (x : FVec Ideal SX .f32) (vk : FVec Ideal SVk .f32) (vb : FVec Ideal SVb .f32) (r : Fin 8192) : EReal :=
  sp (pre x vk vb r)

/-- The column of diagonal values, as the [8192, 1] array region 0 leaves and region 1 reads. -/
def dcol (x : FVec Ideal SX .f32) (vk : FVec Ideal SVk .f32) (vb : FVec Ideal SVb .f32) : FVec Ideal SD .f32 :=
  fun i => dval x vk vb ⟨(i 0).val, (i 0).isLt⟩

/-- The weighted Gram entry of rows `r` and `s`. -/
def gram (x : FVec Ideal SX .f32) (ck : FVec Ideal SCk .f32) (r s : Fin 8192) : EReal :=
  ∑ k : Fin 512, (x (ix2 r k) * ck (ix1 k)) * x (ix2 s k)

/-- Entry `(r, s)` of the result when the diagonal holds the column `d`. -/
def entry (x : FVec Ideal SX .f32) (ck : FVec Ideal SCk .f32) (d : FVec Ideal SD .f32) (r s : Fin 8192) : EReal :=
  if r.val = s.val then d (ix2 r (0 : Fin 1)) else gram x ck r s

/-- The result array from a given diagonal column. -/
def cov (x : FVec Ideal SX .f32) (ck : FVec Ideal SCk .f32) (d : FVec Ideal SD .f32) : FVec Ideal SOut .f32 :=
  fun i => entry x ck d ⟨(i 0).val, (i 0).isLt⟩ ⟨(i 1).val, (i 1).isLt⟩

/-- The whole result as one function of the four arguments. -/
def G (x : FVec Ideal SX .f32) (ck : FVec Ideal SCk .f32) (vk : FVec Ideal SVk .f32) (vb : FVec Ideal SVb .f32) :
    FVec Ideal SOut .f32 :=
  cov x ck (dcol x vk vb)

theorem cov_ix2 (x : FVec Ideal SX .f32) (ck : FVec Ideal SCk .f32) (d : FVec Ideal SD .f32) (r s : Fin 8192) :
    cov x ck d (ix2 r s) = entry x ck d r s := rfl

theorem dcol_ix2 (x : FVec Ideal SX .f32) (vk : FVec Ideal SVk .f32) (vb : FVec Ideal SVb .f32) (r : Fin 8192) :
    dcol x vk vb (ix2 r (0 : Fin 1)) = dval x vk vb r := rfl

end Cert.Spec

end
-- ==== Proof.FrameKI.Value0.lean ====
/-
  What region 0 leaves in the diagonal-values array, at the ideal instance: after its 8 write-backs the [8192, 1]
  array holds, at row r, softplus of row r's product with var_kernel plus the bias, plus the literal — the
  specification's column. Tile t's block covers rows 1024 t … 1024 t + 1023, and the tiles cover the array.
-/
import proofs.«154148_j51350628991246_1_alg».proof.Proof.FrameKI.Data
import proofs.«154148_j51350628991246_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! Region 0's column of diagonal values: first one row's arithmetic, then the eight tiles put together. -/
namespace DiagValue

/-! ## The body's arithmetic at one row -/

/-- The zero offsets of a whole rank-2 buffer, and of a whole rank-1 buffer. -/
theorem zero_off2 : (![0, 0] : Fin 2 → Nat) = fun _ => 0 := funext fun a => by fin_cases a <;> rfl
theorem zero_off1 : (![0] : Fin 1 → Nat) = fun _ => 0 := funext fun a => by fin_cases a <;> rfl

/-- The product's operand indices at output index `i` and contraction index `q`, axis by axis: the left operand is read
    at (row of `i`, `q`), the right one at (`q`, column of `i`). -/
theorem lhs_diag_0 (i : S1024x1.Idx) (q : dot_S1024x512_S512x1_S1024x1_1_0_0_1_n_n.contr.Idx) :
    (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem lhs_diag_1 (i : S1024x1.Idx) (q : dot_S1024x512_S512x1_S1024x1_1_0_0_1_n_n.contr.Idx) :
    (dot_S1024x512_S512x1_S1024x1_1_0_0_1_n_n.lhsIdx i q 1).val = (q ⟨0, by decide⟩).val :=
  dot_S1024x512_S512x1_S1024x1_1_0_0_1_n_n.lhsIdx_val_of_single rfl i q
theorem rhs_diag_0 (i : S1024x1.Idx) (q : dot_S1024x512_S512x1_S1024x1_1_0_0_1_n_n.contr.Idx) :
    (dot_S1024x512_S512x1_S1024x1_1_0_0_1_n_n.rhsIdx i q 0).val = (q ⟨0, by decide⟩).val :=
  dot_S1024x512_S512x1_S1024x1_1_0_0_1_n_n.rhsIdx_val_of_single rfl i q
theorem rhs_diag_1 (i : S1024x1.Idx) (q : dot_S1024x512_S512x1_S1024x1_1_0_0_1_n_n.contr.Idx) :
    (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl

/-- The product into the zero accumulator, at row `p` and column `q`: the sum over the 512 contracted positions. -/
theorem prod_apply (a : FVec Ideal S1024x512 .bf16) (b : FVec Ideal S512x1 .bf16) (p : Fin 1024) (q : Fin 1) :
    matmul dot_S1024x512_S512x1_S1024x1_1_0_0_1_n_n none a b (constant (F := Ideal) S1024x1 .f32 0x00000000#32) (ix2 p q)
      = ∑ k : Fin 512, a (ix2 p k) * b (ix2 k q) := by
  simp only [matmul]
  rw [Ideal.matmul_constant_zero_apply, ← Equiv.sum_comp (contrEquiv1 dot_S1024x512_S512x1_S1024x1_1_0_0_1_n_n 512 rfl rfl).symm]
  refine Finset.sum_congr rfl fun k _ => ?_
  have hk := contrEquiv1_symm_val dot_S1024x512_S512x1_S1024x1_1_0_0_1_n_n 512 rfl rfl k
  have el : dot_S1024x512_S512x1_S1024x1_1_0_0_1_n_n.lhsIdx (ix2 p q) ((contrEquiv1 dot_S1024x512_S512x1_S1024x1_1_0_0_1_n_n 512 rfl rfl).symm k) = ix2 p k := funext fun a => Fin.ext (by
    match a with
    | ⟨0, _⟩ => exact lhs_diag_0 _ _
    | ⟨1, _⟩ => exact (lhs_diag_1 _ _).trans hk)
  have er : dot_S1024x512_S512x1_S1024x1_1_0_0_1_n_n.rhsIdx (ix2 p q) ((contrEquiv1 dot_S1024x512_S512x1_S1024x1_1_0_0_1_n_n 512 rfl rfl).symm k) = ix2 k q := funext fun a => Fin.ext (by
    match a with
    | ⟨0, _⟩ => exact (rhs_diag_0 _ _).trans hk
    | ⟨1, _⟩ => exact rhs_diag_1 _ _)
  rw [el, er]

/-- The softplus as the body spells it at one element `a`: the guard compares `a - 0` with itself, the main branch is
    `max a 0 + log1p (exp (0 - |a - 0|))`, and the literal is added last. -/
def spBody (a : EReal) : EReal :=
  Scalar.select (Ideal.cmp .one (a - Ideal.ofBits .f32 0x00000000#32) (a - Ideal.ofBits .f32 0x00000000#32))
      (a + Ideal.ofBits .f32 0x00000000#32)
      (max a (Ideal.ofBits .f32 0x00000000#32)
        + Ideal.log1p (Ideal.exp (Ideal.ofBits .f32 0x00000000#32
            - max (a - Ideal.ofBits .f32 0x00000000#32) (-(a - Ideal.ofBits .f32 0x00000000#32)))))
    + Ideal.ofBits .f32 0x322BCC77#32

/-- An extended real never differs from itself, so the guard is off and the main branch is the specification's
    softplus: subtracting zero changes nothing and `0 - y = -y`. -/
theorem spBody_eq (a : EReal) : spBody a = Cert.Spec.sp a := by
  unfold spBody Cert.Spec.sp
  rw [Ideal.ofBits_zero_f32, sub_zero, zero_sub]
  have hg : Ideal.cmp .one a a = 0#1 := by simp [Ideal.cmp]
  rw [hg, select_zero]

/-- The one entry of the bias vector. -/
theorem bias_entry (x2 : Vec Ideal S1 .f32) (h : ∀ a, (![0] : Fin 1 → Nat) a < S1.size a) :
    extractAt ![0] x2 h = x2 (ix1 (0 : Fin 1)) := by
  unfold extractAt
  exact congrArg x2 (funext fun a => by match a with | ⟨0, _⟩ => rfl)

/-- The body's stored value, element by element: the body's softplus of the product plus the bias. -/
theorem pay_unfold (x0 : Vec Ideal S1024x512 .f32) (x1 : Vec Ideal S512x1 .f32) (x2 : Vec Ideal S1 .f32) (j : S1024x1.Idx) :
    k0_pay1 (F := Ideal) x0 x1 x2 j
      = spBody (matmul dot_S1024x512_S512x1_S1024x1_1_0_0_1_n_n none (truncf .bf16 x0 bitsLt_bf16_f32)
            (truncf .bf16 x1 bitsLt_bf16_f32) (constant (F := Ideal) S1024x1 .f32 0x00000000#32) j
          + extractAt ![0] x2 inpos_S1_p0) := rfl

/-- The body's stored value at row `p` (column `q`, the only one): the specification's softplus of the row's product
    with the one column of the kernel, plus the bias. Rounding the operands to the narrower format is the identity on the
    extended reals. -/
theorem pay_apply (x0 : Vec Ideal S1024x512 .f32) (x1 : Vec Ideal S512x1 .f32) (x2 : Vec Ideal S1 .f32) (p : Fin 1024) (q : Fin 1) :
    k0_pay1 (F := Ideal) x0 x1 x2 (ix2 p q)
      = Cert.Spec.sp ((∑ k : Fin 512, x0 (ix2 p k) * x1 (ix2 k q)) + x2 (ix1 (0 : Fin 1))) := by
  rw [pay_unfold, spBody_eq, prod_apply, bias_entry]
  rfl

/-! ## From the tiles to the array -/

variable (V : (c : Dev nD) → (b : Ref sig .tc) → Buf (Elt Ideal) ((c : Thread nD τ).loc b))

/-- The three argument arrays as region 0 finds them, and the three input blocks at tile `t`, at their literal types. -/
abbrev xarr (c : Dev nD) : FVec Ideal Cert.Spec.SX .f32 := V c main_arg0
abbrev karr (c : Dev nD) : FVec Ideal Cert.Spec.SVk .f32 := V c main_arg2
abbrev barr (c : Dev nD) : FVec Ideal Cert.Spec.SVb .f32 := V c main_arg3
abbrev xblk (c : Dev nD) (t : Fin cfg0.N) : Vec Ideal S1024x512 .f32 := iblk0 V c 0 t
abbrev kblk (c : Dev nD) (t : Fin cfg0.N) : Vec Ideal S512x1 .f32 := iblk0 V c 1 t
abbrev bblk (c : Dev nD) (t : Fin cfg0.N) : Vec Ideal S1 .f32 := iblk0 V c 2 t

/-- The block indices over the 8 tiles: the rows of `x` and of the output move with the tile, everything else stays at
    block 0. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Tile `t`'s block of `x` is rows `1024 t … 1024 t + 1023` of `x`, all columns. -/
theorem xblk_apply (c : Dev nD) (t : Fin cfg0.N) (y : S1024x512.Idx) (i : Cert.Spec.SX.Idx)
    (h0 : (i 0).val = 1024 * t.val + (y 0).val) (h1 : (i 1).val = (y 1).val) :
    xblk V c t y = xarr V c i := by
  obtain ⟨e0, e1, -⟩ := tile_index t
  show V c main_arg0 (((cfg0.win 0).blk t).view.emb y) = V c main_arg0 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- Every tile's block of `var_kernel` is the whole of it. -/
theorem kblk_apply (c : Dev nD) (t : Fin cfg0.N) (y : S512x1.Idx) (i : Cert.Spec.SVk.Idx)
    (h0 : (i 0).val = (y 0).val) (h1 : (i 1).val = (y 1).val) :
    kblk V c t y = karr V c i := by
  obtain ⟨-, -, e0, e1, -⟩ := tile_index t
  show V c main_arg2 (((cfg0.win 1).blk t).view.emb y) = V c main_arg2 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 1 + 1 * (y 1).val = (i 1).val; omega

/-- Every tile's block of `var_bias` is the whole of it. -/
theorem bblk_apply (c : Dev nD) (t : Fin cfg0.N) (y : S1.Idx) (i : Cert.Spec.SVb.Idx)
    (h0 : (i 0).val = (y 0).val) :
    bblk V c t y = barr V c i := by
  obtain ⟨-, -, -, -, e0, -⟩ := tile_index t
  show V c main_arg3 (((cfg0.win 2).blk t).view.emb y) = V c main_arg3 i
  refine congrArg _ (funext fun a => Fin.ext ?_)
  match a with
  | ⟨0, _⟩ => show win0_2.index t (0 : Fin 1) * 1 + 1 * (y 0).val = (i 0).val; omega

/-- The body's stored value at row `p` of a tile whose loaded blocks are rows `r …` of `x`, all of `var_kernel` and
    all of `var_bias`: the specification's diagonal value of row `r`. -/
theorem tile_entry (X : FVec Ideal Cert.Spec.SX .f32) (VK : FVec Ideal Cert.Spec.SVk .f32) (VB : FVec Ideal Cert.Spec.SVb .f32)
    (x0 : Vec Ideal S1024x512 .f32) (x1 : Vec Ideal S512x1 .f32) (x2 : Vec Ideal S1 .f32)
    (p : Fin 1024) (q : Fin 1) (r : Fin 8192)
    (h0 : ∀ k : Fin 512, x0 (ix2 p k) = X (ix2 r k))
    (h1 : ∀ k : Fin 512, x1 (ix2 k q) = VK (ix2 k (0 : Fin 1)))
    (h2 : x2 (ix1 (0 : Fin 1)) = VB (ix1 (0 : Fin 1))) :
    k0_pay1 (F := Ideal) x0 x1 x2 (ix2 p q) = Cert.Spec.dval X VK VB r := by
  rw [pay_apply, h2]
  unfold Cert.Spec.dval Cert.Spec.pre
  refine congrArg Cert.Spec.sp (congrArg (· + VB (ix1 (0 : Fin 1))) (Finset.sum_congr rfl fun k _ => ?_))
  rw [h0 k, h1 k]

/-- WHAT TILE `t` WRITES BACK is block `t` of the specification's column of the arrays as the region finds them. -/
theorem flushed3_eq (c : Dev nD) (t : Fin cfg0.N) :
    (dat0 (F := Ideal) V c).flushed 3 t
      = ((cfg0.win 3).blk t).view.read (Elt Ideal) (Cert.Spec.dcol (V c main_arg0) (V c main_arg2) (V c main_arg3)) := by
  show (cfg0.win 3).cut (grid0.coords t) ((dat0 (F := Ideal) V c).after 3 t) = _
  rw [after0_3]
  unfold out0_3
  rw [View.canon_unit_zero zero_off2]
  simp only [View.ld_unit_zero (S := S1024x512) zero_off2, View.ld_unit_zero (S := S512x1) zero_off2,
    View.ld_unit_zero (S := S1) zero_off1]
  obtain ⟨-, -, -, -, -, e0, e1⟩ := tile_index t
  funext j
  obtain ⟨p, q, rfl⟩ : ∃ (p : Fin 1024) (q : Fin 1), j = ix2 p q := ⟨j 0, j 1, eq_ix2 j⟩
  have hr : ((((cfg0.win 3).blk t).view.emb (ix2 p q)) 0).val = 1024 * t.val + p.val := by
    show win0_3.index t (0 : Fin 2) * 1024 + 1 * p.val = _
    omega
  show k0_pay1 (F := Ideal) (xblk V c t) (kblk V c t) (bblk V c t) (ix2 p q)
    = Cert.Spec.dval (xarr V c) (karr V c) (barr V c) ⟨((((cfg0.win 3).blk t).view.emb (ix2 p q)) 0).val, ((((cfg0.win 3).blk t).view.emb (ix2 p q)) 0).isLt⟩
  refine tile_entry (xarr V c) (karr V c) (barr V c) (xblk V c t) (kblk V c t) (bblk V c t) p q _ (fun k => ?_) (fun k => ?_) ?_
  · exact xblk_apply V c t (ix2 p k) (ix2 _ k) hr rfl
  · exact kblk_apply V c t (ix2 k q) (ix2 k (0 : Fin 1)) rfl (by show (0 : Nat) = q.val; omega)
  · exact bblk_apply V c t (ix1 (0 : Fin 1)) (ix1 (0 : Fin 1)) rfl

/-- An index of the output array is in tile `t`'s block iff each coordinate is in the block's range on its axis. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0).slice (win0_3.rect t)).set ↔ _
  rw [View.set_slice_whole, Rect.mem_set_unit]
  exact Iff.rfl

/-- Every row of the output is in the block of the tile `row / 1024`. -/
theorem tiles_cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : grid0.N = 8 := N_0
  refine ⟨⟨(i 0).val / 1024, by show (i 0).val / 1024 < grid0.N; omega⟩, flush0_3 _, ?_⟩
  rw [mem_blk3]
  obtain ⟨-, -, -, -, -, e0, e1⟩ := tile_index ⟨(i 0).val / 1024, by show (i 0).val / 1024 < grid0.N; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1 ≤ (i 1).val ∧ (i 1).val < win0_3.index _ (1 : Fin 2) * 1 + 1
    rw [e1]; omega

end DiagValue

variable (V : (c : Dev nD) → (b : Ref sig .tc) → Buf (Elt Ideal) ((c : Thread nD τ).loc b))

/-- Region 0's output array after the run is the specification's column of diagonal values of the arguments. -/
theorem diag_final (c : Dev nD) :
    ((dat0 (F := Ideal) V c).arrAt 3 cfg0.N : S8192x1.Idx → EReal)
      = Cert.Spec.dcol (V c main_arg0) (V c main_arg2) (V c main_arg3) :=
  (dat0 (F := Ideal) V c).arrAt_eq_of_cover 3 (Cert.Spec.dcol (V c main_arg0) (V c main_arg2) (V c main_arg3))
    (fun t _ => DiagValue.flushed3_eq V c t) DiagValue.tiles_cover

end Cert.KernelIdeal.Frame

end
-- ==== Proof.FrameKI.Value1.lean ====
/-
  What region 1 leaves in the result array, at the ideal instance: after its 64 write-backs the [8192, 8192] array
  holds, at (r, s), the diagonal-values array's entry r when r = s and the weighted Gram sum of rows r and s
  otherwise. Tile (i, j)'s block covers rows 1024 i … and columns 1024 j …; inside a diagonal tile local
  row = local column exactly when r = s, and off the diagonal tiles r ≠ s.
-/
import proofs.«154148_j51350628991246_1_alg».proof.Proof.FrameKI.Data
import proofs.«154148_j51350628991246_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

/-! ## The tile's two payloads at an entry (p, q) -/

/-- The weights as the body spreads them: `cov_kernel`'s 512 entries viewed [1, 512] and copied down the 1024 rows
    read, at (p, k), entry k. -/
theorem weightRow_apply (x2 : Vec Ideal S512 .f32) (p : Fin 1024) (k : Fin 512) :
    broadcastTo S1024x512 (shapeCast S1x512 x2 shapeCasts_S512_S1x512) broadcasts_S1x512_S1024x512 (ix2 p k) = x2 (ix1 k) :=
  (broadcastTo_1b_ab_apply _ broadcasts_S1x512_S1024x512 p k).trans (shapeCast_a_1a_apply x2 shapeCasts_S512_S1x512 (0 : Fin 1) k)

/-- The product's left operand is read at (row of the entry, contraction coordinate) … -/
theorem gramDot_lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem gramDot_lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- … and its right operand at (COLUMN of the entry, contraction coordinate): both operands are contracted along their
    second axis. -/
theorem gramDot_rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem gramDot_rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- THE GRAM BLOCK AT (p, q): the sum over the 512 features of (row p of the first block × weight) × row q of the
    second block. The narrowing of both operands is the identity on the extended reals, and the product starts from
    the zero accumulator. -/
theorem gramTile_apply (x0 x1 : Vec Ideal S1024x512 .f32) (x2 : Vec Ideal S512 .f32) (p q : Fin 1024) :
    k1_pay1 x0 x1 x2 (ix2 p q) = ∑ k : Fin 512, (x0 (ix2 p k) * x2 (ix1 k)) * x1 (ix2 q k) := by
  unfold k1_pay1
  refine (Ideal.matmul_constant_zero_apply dot_S1024x512_S1024x512_S1024x1024_1_1_0_0_n_n none _ _ (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact gramDot_lhs_0 _ _
    | ⟨1, _⟩ => exact (gramDot_lhs_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact gramDot_rhs_0 _ _
    | ⟨1, _⟩ => exact (gramDot_rhs_1 _ _).trans hk)
  rw [el, er]
  exact congrArg (fun w => (x0 (ix2 p k) * w) * x1 (ix2 q k)) (weightRow_apply x2 p k)

/-- Two numbers below 1024, as 32-bit words, are the same word exactly when they are the same number: the select on
    their comparison is the `if` on the numbers. -/
theorem select_eqWord {α : Type} (p q : Nat) (hp : p < 1024) (hq : q < 1024) (A B : α) :
    Scalar.select (IntOp.cmpi .eq (BitVec.ofNat 32 p) (BitVec.ofNat 32 q)) A B = if p = q then A else B := by
  have hw : BitVec.ofNat 32 p = BitVec.ofNat 32 q ↔ p = q := by
    constructor
    · intro h
      have h' := congrArg BitVec.toNat h
      rw [BitVec.toNat_ofNat, BitVec.toNat_ofNat, Nat.mod_eq_of_lt (by omega), Nat.mod_eq_of_lt (by omega)] at h'
      exact h'
    · intro h; rw [h]
  by_cases h : p = q
  · rw [if_pos h]
    subst h
    exact if_pos (by simp [IntOp.cmpi])
  · rw [if_neg h]
    have hne : ¬ BitVec.ofNat 32 p = BitVec.ofNat 32 q := fun e => h (hw.mp e)
    refine if_neg ?_
    show ¬ BitVec.ofBool (BitVec.ofNat 32 p == BitVec.ofNat 32 q) = 1#1
    rw [beq_eq_false_iff_ne.mpr hne]
    decide

/-- The row counter, spread over the tile, reads the entry's row … -/
theorem rowIota_apply (p q : Fin 1024) :
    broadcastTo S1024x1024 (iota .tc S1024x1 32 [0] iota_S1024x1_d0_w32) broadcasts_S1024x1_S1024x1024 (ix2 p q) = BitVec.ofNat 32 p.val :=
  (broadcastTo_apply _ broadcasts_S1024x1_S1024x1024 (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])).trans
    (iota_single_apply .tc S1024x1 32 0 iota_S1024x1_d0_w32 (ix2 p (0 : Fin 1)))
/-- … the column counter its column … -/
theorem colIota_apply (p q : Fin 1024) :
    broadcastTo S1024x1024 (iota .tc S1x1024 32 [1] iota_S1x1024_d1_w32) broadcasts_S1x1024_S1024x1024 (ix2 p q) = BitVec.ofNat 32 q.val :=
  (broadcastTo_apply _ broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])).trans
    (iota_single_apply .tc S1x1024 32 1 iota_S1x1024_d1_w32 (ix2 (0 : Fin 1) q))
/-- … and the column of diagonal values, spread over the tile's columns, the value of the entry's row. -/
theorem diagCol_apply (x3 : Vec Ideal S1024x1 .f32) (p q : Fin 1024) :
    broadcastTo S1024x1024 x3 broadcasts_S1024x1_S1024x1024 (ix2 p q) = x3 (ix2 p (0 : Fin 1)) :=
  broadcastTo_apply x3 broadcasts_S1024x1_S1024x1024 (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- THE DIAGONAL TILE AT (p, q): the diagonal value of row p where p = q, the Gram block elsewhere. -/
theorem diagTile_apply (x0 x1 : Vec Ideal S1024x512 .f32) (x2 : Vec Ideal S512 .f32) (x3 : Vec Ideal S1024x1 .f32) (p q : Fin 1024) :
    k1_pay2 x0 x1 x2 x3 (ix2 p q) = if p.val = q.val then x3 (ix2 p (0 : Fin 1)) else k1_pay1 x0 x1 x2 (ix2 p q) := by
  unfold k1_pay2
  rw [shapeCast_self, shapeCast_self]
  show Scalar.select (IntOp.cmpi .eq
      (broadcastTo S1024x1024 (iota .tc S1024x1 32 [0] iota_S1024x1_d0_w32) broadcasts_S1024x1_S1024x1024 (ix2 p q))
      (broadcastTo S1024x1024 (iota .tc S1x1024 32 [1] iota_S1x1024_d1_w32) broadcasts_S1x1024_S1024x1024 (ix2 p q)))
      (broadcastTo S1024x1024 x3 broadcasts_S1024x1_S1024x1024 (ix2 p q)) (k1_pay1 x0 x1 x2 (ix2 p q)) = _
  rw [rowIota_apply, colIota_apply, diagCol_apply]
  exact select_eqWord p.val q.val p.isLt q.isLt _ _

/-! ## A tile's entry is the specification's, given where its blocks sit -/

/-- The Gram block of row tile `bi` against row tile `bj`, at (p, q), is the specification's weighted Gram sum of
    rows 1024 bi + p and 1024 bj + q. -/
theorem gramTile_spec (X : FVec Ideal Cert.Spec.SX .f32) (CK : FVec Ideal Cert.Spec.SCk .f32)
    (x0 x1 : Vec Ideal S1024x512 .f32) (x2 : Vec Ideal S512 .f32) (bi bj : Nat)
    (h0 : ∀ (y : S1024x512.Idx) (i : S8192x512.Idx), (i 0).val = bi * 1024 + (y 0).val → (i 1).val = (y 1).val → x0 y = X i)
    (h1 : ∀ (y : S1024x512.Idx) (i : S8192x512.Idx), (i 0).val = bj * 1024 + (y 0).val → (i 1).val = (y 1).val → x1 y = X i)
    (h2 : x2 = CK) (p q : Fin 1024) (r s : Fin 8192) (hr : r.val = bi * 1024 + p.val) (hs : s.val = bj * 1024 + q.val) :
    k1_pay1 x0 x1 x2 (ix2 p q) = Cert.Spec.gram X CK r s := by
  rw [gramTile_apply]
  unfold Cert.Spec.gram
  refine Finset.sum_congr rfl fun k _ => ?_
  rw [h0 (ix2 p k) (ix2 r k) hr rfl, h1 (ix2 q k) (ix2 s k) hs rfl, h2]

/-- TILE (bi, bj) AT (p, q) IS THE SPECIFICATION'S ENTRY (1024 bi + p, 1024 bj + q): on a diagonal tile the body's
    select puts the diagonal value where p = q, which is where row = column; off the diagonal tiles the rows and
    columns lie in different tiles and never meet, and the body stores the Gram block. -/
theorem tile_spec (X : FVec Ideal Cert.Spec.SX .f32) (CK : FVec Ideal Cert.Spec.SCk .f32) (D : FVec Ideal Cert.Spec.SD .f32)
    (x0 x1 : Vec Ideal S1024x512 .f32) (x2 : Vec Ideal S512 .f32) (x3 : Vec Ideal S1024x1 .f32) (bi bj : Nat)
    (h0 : ∀ (y : S1024x512.Idx) (i : S8192x512.Idx), (i 0).val = bi * 1024 + (y 0).val → (i 1).val = (y 1).val → x0 y = X i)
    (h1 : ∀ (y : S1024x512.Idx) (i : S8192x512.Idx), (i 0).val = bj * 1024 + (y 0).val → (i 1).val = (y 1).val → x1 y = X i)
    (h2 : x2 = CK)
    (h3 : ∀ (y : S1024x1.Idx) (i : S8192x1.Idx), (i 0).val = bi * 1024 + (y 0).val → x3 y = D i)
    (j : S1024x1024.Idx) (i : S8192x8192.Idx) (hi0 : (i 0).val = bi * 1024 + (j 0).val) (hi1 : (i 1).val = bj * 1024 + (j 1).val) :
    (if bi = bj then k1_pay2 x0 x1 x2 x3 j else k1_pay1 x0 x1 x2 j) = Cert.Spec.cov X CK D i := by
  obtain ⟨p, q, rfl⟩ : ∃ (p q : Fin 1024), j = ix2 p q := ⟨j 0, j 1, eq_ix2 j⟩
  have hp : p.val < 1024 := p.isLt
  have hq : q.val < 1024 := q.isLt
  have hr : (i 0).val = bi * 1024 + p.val := hi0
  have hs : (i 1).val = bj * 1024 + q.val := hi1
  show _ = Cert.Spec.entry X CK D ⟨(i 0).val, (i 0).isLt⟩ ⟨(i 1).val, (i 1).isLt⟩
  unfold Cert.Spec.entry
  show _ = if (i 0).val = (i 1).val then D (ix2 (⟨(i 0).val, (i 0).isLt⟩ : Fin 8192) (0 : Fin 1)) else Cert.Spec.gram X CK ⟨(i 0).val, (i 0).isLt⟩ ⟨(i 1).val, (i 1).isLt⟩
  by_cases hd : bi = bj
  · rw [if_pos hd, diagTile_apply]
    by_cases hpq : p.val = q.val
    · rw [if_pos hpq, if_pos (by omega)]
      exact h3 (ix2 p (0 : Fin 1)) _ hr
    · rw [if_neg hpq, if_neg (by omega)]
      exact gramTile_spec X CK x0 x1 x2 bi bj h0 h1 h2 p q _ _ hr hs
  · rw [if_neg hd, if_neg (by omega)]
    exact gramTile_spec X CK x0 x1 x2 bi bj h0 h1 h2 p q _ _ hr hs

/-! ## Where the blocks sit -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: the two windows over `x` sit at the output tile's row
    and column, the diagonal values at its row, the weights are whole; the tile's coordinates are below 8; and the
    body's diagonal branch runs exactly where the tile's row and column agree. -/
theorem tileIdx : ∀ t : Fin cfg1.N,
    win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 1) = 0
    ∧ win1_3.index t (0 : Fin 2) = win1_4.index t (0 : Fin 2) ∧ win1_3.index t (1 : Fin 2) = 0
    ∧ win1_4.index t (0 : Fin 2) ≤ 7 ∧ win1_4.index t (1 : Fin 2) ≤ 7
    ∧ (k1_cond1 (grid1.coords t) = 1#1 ↔ win1_4.index t (0 : Fin 2) = win1_4.index t (1 : Fin 2)) :=
  (by decide +kernel : ∀ t : Fin grid1.N, _)

/-- Every tile of the 8 × 8 is some point's. -/
theorem tileOnto : ∀ (q0 q1 : Fin 8), ∃ t : Fin cfg1.N, win1_4.index t = ![q0.val, q1.val] :=
  (by decide +kernel : ∀ (q0 q1 : Fin 8), ∃ t : Fin grid1.N, win1_4.index t = ![q0.val, q1.val])

/-- A window over `x` holds, at a point, the 1024 rows of `x` from 1024 × its block's row index. -/
theorem xBlock0_apply (c : Dev nD) (t : Fin cfg1.N) (y : S1024x512.Idx) (i : S8192x512.Idx)
    (hi0 : (i 0).val = win1_0.index t (0 : Fin 2) * 1024 + (y 0).val) (hi1 : (i 1).val = win1_0.index t (1 : Fin 2) * 512 + (y 1).val) :
    (iblk1 V c 0 t : Vec Ideal S1024x512 .f32) y = (V c main_arg0 : S8192x512.Idx → EReal) i := by
  unfold iblk1
  rw [View.read_apply]
  show V c main_arg0 _ = V c main_arg0 i
  congr 1
  funext a
  apply Fin.ext
  match a with
  | ⟨0, _⟩ => show win1_0.index t (0 : Fin 2) * 1024 + 1 * (y 0).val = (i 0).val; omega
  | ⟨1, _⟩ => show win1_0.index t (1 : Fin 2) * 512 + 1 * (y 1).val = (i 1).val; omega
theorem xBlock1_apply (c : Dev nD) (t : Fin cfg1.N) (y : S1024x512.Idx) (i : S8192x512.Idx)
    (hi0 : (i 0).val = win1_1.index t (0 : Fin 2) * 1024 + (y 0).val) (hi1 : (i 1).val = win1_1.index t (1 : Fin 2) * 512 + (y 1).val) :
    (iblk1 V c 1 t : Vec Ideal S1024x512 .f32) y = (V c main_arg0 : S8192x512.Idx → EReal) i := by
  unfold iblk1
  rw [View.read_apply]
  show V c main_arg0 _ = V c main_arg0 i
  congr 1
  funext a
  apply Fin.ext
  match a with
  | ⟨0, _⟩ => show win1_1.index t (0 : Fin 2) * 1024 + 1 * (y 0).val = (i 0).val; omega
  | ⟨1, _⟩ => show win1_1.index t (1 : Fin 2) * 512 + 1 * (y 1).val = (i 1).val; omega
/-- The weights' window holds `cov_kernel` from its block index × 512. -/
theorem wBlock_apply (c : Dev nD) (t : Fin cfg1.N) (y : S512.Idx) (i : S512.Idx)
    (hi0 : (i 0).val = win1_2.index t (0 : Fin 1) * 512 + (y 0).val) :
    (iblk1 V c 2 t : Vec Ideal S512 .f32) y = (V c main_arg1 : S512.Idx → EReal) i := by
  unfold iblk1
  rw [View.read_apply]
  show V c main_arg1 _ = V c main_arg1 i
  congr 1
  funext a
  apply Fin.ext
  match a with
  | ⟨0, _⟩ => show win1_2.index t (0 : Fin 1) * 512 + 1 * (y 0).val = (i 0).val; omega
/-- The diagonal values' window holds the 1024 entries of the column from 1024 × its block's row index. -/
theorem dBlock_apply (c : Dev nD) (t : Fin cfg1.N) (y : S1024x1.Idx) (i : S8192x1.Idx)
    (hi0 : (i 0).val = win1_3.index t (0 : Fin 2) * 1024 + (y 0).val) (hi1 : (i 1).val = win1_3.index t (1 : Fin 2) * 1 + (y 1).val) :
    (iblk1 V c 3 t : Vec Ideal S1024x1 .f32) y = (V c main_v0 : S8192x1.Idx → EReal) i := by
  unfold iblk1
  rw [View.read_apply]
  show V c main_v0 _ = V c main_v0 i
  congr 1
  funext a
  apply Fin.ext
  match a with
  | ⟨0, _⟩ => show win1_3.index t (0 : Fin 2) * 1024 + 1 * (y 0).val = (i 0).val; omega
  | ⟨1, _⟩ => show win1_3.index t (1 : Fin 2) * 1 + 1 * (y 1).val = (i 1).val; omega

/-! ## What a point writes back, and the whole array -/

/-- WHAT POINT `t` WRITES BACK is block `t` of the specification's result from the arrays the region found. -/
theorem tile_flushed (c : Dev nD) (t : Fin cfg1.N) :
    (dat1 (F := Ideal) V c).flushed 4 t
      = ((cfg1.win 4).blk t).view.read (Elt Ideal) (Cert.Spec.cov (V c main_arg0) (V c main_arg1) (V c main_v0)) := by
  obtain ⟨e00, e01, e10, e11, e2, e30, e31, b0, b1, hd⟩ := tileIdx t
  have hx0 : ∀ (y : S1024x512.Idx) (i : S8192x512.Idx), (i 0).val = win1_4.index t (0 : Fin 2) * 1024 + (y 0).val → (i 1).val = (y 1).val →
      (iblk1 V c 0 t : Vec Ideal S1024x512 .f32) y = (V c main_arg0 : S8192x512.Idx → EReal) i :=
    fun y i h0 h1 => xBlock0_apply V c t y i (by omega) (by omega)
  have hx1 : ∀ (y : S1024x512.Idx) (i : S8192x512.Idx), (i 0).val = win1_4.index t (1 : Fin 2) * 1024 + (y 0).val → (i 1).val = (y 1).val →
      (iblk1 V c 1 t : Vec Ideal S1024x512 .f32) y = (V c main_arg0 : S8192x512.Idx → EReal) i :=
    fun y i h0 h1 => xBlock1_apply V c t y i (by omega) (by omega)
  have hw : (iblk1 V c 2 t : Vec Ideal S512 .f32) = (V c main_arg1 : S512.Idx → EReal) :=
    funext fun y => wBlock_apply V c t y y (by omega)
  have hdv : ∀ (y : S1024x1.Idx) (i : S8192x1.Idx), (i 0).val = win1_4.index t (0 : Fin 2) * 1024 + (y 0).val →
      (iblk1 V c 3 t : Vec Ideal S1024x1 .f32) y = (V c main_v0 : S8192x1.Idx → EReal) i :=
    fun y i h0 => dBlock_apply V c t y i (by omega) (by
      have hy : (y 1).val < 1 := (y 1).isLt
      have hi : (i 1).val < 1 := (i 1).isLt
      omega)
  show (cfg1.win 4).cut (grid1.coords t) ((dat1 (F := Ideal) V c).after 4 t) = _
  rw [after1_4]
  funext j
  have hj0 : (((cfg1.win 4).blk t).view.emb j 0).val = win1_4.index t (0 : Fin 2) * 1024 + (j 0).val := by
    show win1_4.index t (0 : Fin 2) * 1024 + 1 * (j 0).val = _; omega
  have hj1 : (((cfg1.win 4).blk t).view.emb j 1).val = win1_4.index t (1 : Fin 2) * 1024 + (j 1).val := by
    show win1_4.index t (1 : Fin 2) * 1024 + 1 * (j 1).val = _; omega
  rw [View.read_apply]
  refine Eq.trans ?_ (tile_spec (V c main_arg0) (V c main_arg1) (V c main_v0) (iblk1 V c 0 t) (iblk1 V c 1 t) (iblk1 V c 2 t) (iblk1 V c 3 t)
    (win1_4.index t (0 : Fin 2)) (win1_4.index t (1 : Fin 2)) hx0 hx1 hw hdv j (((cfg1.win 4).blk t).view.emb j) hj0 hj1)
  by_cases hc : k1_cond1 (grid1.coords t) = 1#1
  · rw [if_pos hc, if_pos (hd.mp hc)]
    unfold out1_diag
    rw [View.canon_unit_zero hz2]
    simp only [View.ld_unit_zero (S := S1024x512) hz2, View.ld_unit_zero (S := S512) hz1, View.ld_unit_zero (S := S1024x1) hz2]
  · rw [if_neg hc, if_neg (fun h => hc (hd.mpr h))]
    unfold out1_off
    rw [View.canon_unit_zero hz2]
    simp only [View.ld_unit_zero (S := S1024x512) hz2, View.ld_unit_zero (S := S512) hz1]

/-- An index of the result is in point `t`'s block iff each coordinate is in the tile's range on its axis. -/
theorem mem_tile (t : Fin cfg1.N) (i : S8192x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v1).slice (win1_4.rect t)).set ↔ _
  rw [View.set_slice_whole, Rect.mem_set_unit]
  exact Iff.rfl

/-- The 64 tiles cover the result: entry (r, s) lies in the tile (r / 1024, s / 1024). -/
theorem tiles_cover (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  obtain ⟨t, ht⟩ := tileOnto ⟨(i 0).val / 1024, by omega⟩ ⟨(i 1).val / 1024, by omega⟩
  have q0 : win1_4.index t (0 : Fin 2) = (i 0).val / 1024 := congrFun ht 0
  have q1 : win1_4.index t (1 : Fin 2) = (i 1).val / 1024 := congrFun ht 1
  refine ⟨t, flush1_4 t, ?_⟩
  rw [mem_tile]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- Region 1's output array after the run is the specification's result from the arrays the region found: `x`,
    `cov_kernel` and the diagonal-values array. -/
theorem cov_final (c : Dev nD) :
    ((dat1 (F := Ideal) V c).arrAt 4 cfg1.N : S8192x8192.Idx → EReal)
      = Cert.Spec.cov (V c main_arg0) (V c main_arg1) (V c main_v0) := by
  exact (dat1 (F := Ideal) V c).arrAt_eq_of_cover 4 (Cert.Spec.cov (V c main_arg0) (V c main_arg1) (V c main_v0))
    (fun t _ => tile_flushed V c t) tiles_cover

end Cert.KernelIdeal.Frame

end
-- ==== Proof.FrameKI.Final.lean ====
/-
  The idealized kernel's run with its result named: after region 1 the result array holds the specification's `cov`
  of `x`, `cov_kernel` and the diagonal-values array, and that array is what region 0 left, the specification's
  column of `x`, `var_kernel` and `var_bias`: together, `G` of the four arguments.
-/
import proofs.«154148_j51350628991246_1_alg».proof.Proof.FrameKI.Run
import proofs.«154148_j51350628991246_1_alg».proof.Proof.FrameKI.Value0
import proofs.«154148_j51350628991246_1_alg».proof.Proof.FrameKI.Value1
import proofs.«154148_j51350628991246_1_alg».proof.Proof.Spec

noncomputable section

namespace Cert.KernelIdeal.Frame

open Idealize.ShloMosaic Idealize.ShloMosaic.TcCoe Idealize.SL.Sem
open Cert.KernelIdeal Cert.KernelIdeal.Gen

/-- The last boundary's result array is `G` of the launch contents of the four arguments. -/
theorem final_v1 (m : (ℓ : Loc nD τ sig) → Buf (Elt Ideal) ℓ) (c : Dev nD) :
    (E2 (F := Ideal) m c main_v1 : S8192x8192.Idx → EReal)
      = Cert.Spec.G (m ((c.tc : Thread nD τ).loc main_arg0)) (m ((c.tc : Thread nD τ).loc main_arg1))
          (m ((c.tc : Thread nD τ).loc main_arg2)) (m ((c.tc : Thread nD τ).loc main_arg3)) := by
  refine (E2_v1 m c).trans ((cov_final (E1 m) c).trans ?_)
  rw [E1_arg0 m c, E1_arg1 m c, E1_v0 m c, diag_final (E0 m) c]
  rfl

/-- Every weakly fair execution of the idealized kernel ends with the result at `G` of the arguments and the
    arguments unchanged. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_v1 (by decide)).trans (final_v1 m c),
     (h c main_arg0 (by decide)).trans (E2_arg0 m c), (h c main_arg1 (by decide)).trans (E2_arg1 m c),
     (h c main_arg2 (by decide)).trans (E2_arg2 m c), (h c main_arg3 (by decide)).trans (E2_arg3 m c)⟩) (run_main m ρ)

end Cert.KernelIdeal.Frame

end
-- ==== Proof.LibHostRead.lean ====
/-
  Host operations read at an index, for any sizes.

  A gather of single entries out of a vector; an overwriting scatter into a vector (the last update in row-major
  order that lands on an entry is what stays there); an inclusive running sum written as a padded window
  reduction; a row sum of an integer matrix, and the count it gives on a widened mask; two vectors laid end to
  end, and a block of a vector at unit strides.
-/
import Idealize.ShloMosaic.PureOps.Ideal
import Idealize.ShloMosaic.PureOps.Reduce
import Idealize.ShloMosaic.Lib.ValueIdx
import Idealize.ShloMosaic.Lib.StableHlo.Predicate
import Idealize.ShloMosaic.Lib.Pipeline.Value
import Mathlib.Data.BitVec
import Mathlib.Algebra.BigOperators.Fin

noncomputable section

namespace Cert.HostRead

open Idealize.ShloMosaic Idealize.ShloMosaic.ValueIdx

/-! ## An overwriting scatter, read at an entry -/

section Fold
variable {s si u : Shape} {α : Type} {w : Nat} (d : ScatterDims s si u) (f : α → α → α) (idx : IVec si w) (upd : u.Idx → α)

/-- One step of the scatter: update number `n`, when it lands inside the operand, replaces the entry it lands on by
    the body applied to that entry and the update; an update that lands outside changes nothing. -/
private def step (r : s.Idx → α) (n : Fin u.numel) : s.Idx → α :=
  match d.resultIdx? (u.rowMajor.symm n) idx with
  | some i => fun i' => if i' = i then f (r i) (upd (u.rowMajor.symm n)) else r i'
  | none => r

/-- The scatter is the left fold of that step over the update numbers in row-major order. -/
private theorem scatter_eq_foldl (x : s.Idx → α) :
    Host.scatter d f x idx upd = (List.finRange u.numel).foldl (step d f idx upd) x := rfl

private theorem step_some (r : s.Idx → α) (n : Fin u.numel) (i : s.Idx)
    (h : d.resultIdx? (u.rowMajor.symm n) idx = some i) (i' : s.Idx) :
    step d f idx upd r n i' = if i' = i then f (r i) (upd (u.rowMajor.symm n)) else r i' := by
  unfold step
  rw [h]

private theorem step_none (r : s.Idx → α) (n : Fin u.numel) (h : d.resultIdx? (u.rowMajor.symm n) idx = none) :
    step d f idx upd r n = r := by
  unfold step
  rw [h]

/-- A step whose update does not land on `i` leaves entry `i` as it was. -/
private theorem step_miss (r : s.Idx → α) (n : Fin u.numel) (i : s.Idx)
    (h : d.resultIdx? (u.rowMajor.symm n) idx ≠ some i) : step d f idx upd r n i = r i := by
  cases hr : d.resultIdx? (u.rowMajor.symm n) idx with
  | none => rw [step_none d f idx upd r n hr]
  | some i0 =>
    rw [step_some d f idx upd r n i0 hr, if_neg]
    intro e
    exact h (hr.trans (congrArg some e.symm))

/-- Folding a list of updates none of which lands on `i` leaves entry `i` as it was. -/
theorem foldl_miss (L : List (Fin u.numel)) (r : s.Idx → α) (i : s.Idx)
    (h : ∀ n ∈ L, d.resultIdx? (u.rowMajor.symm n) idx ≠ some i) :
    L.foldl (step d f idx upd) r i = r i := by
  induction L generalizing r with
  | nil => rfl
  | cons n L ih =>
    rw [List.foldl_cons, ih _ (fun m hm => h m (List.mem_cons_of_mem _ hm)),
      step_miss d f idx upd r n i (h n List.mem_cons_self)]

/-- With the overwriting body, after folding a list of updates entry `i` holds the LAST update in the list that
    lands on `i`: update `n` lands on `i` and none after it does. -/
theorem foldl_last (L₁ L₂ : List (Fin u.numel)) (n : Fin u.numel) (r : s.Idx → α) (i : s.Idx)
    (hn : d.resultIdx? (u.rowMajor.symm n) idx = some i)
    (h₂ : ∀ m ∈ L₂, d.resultIdx? (u.rowMajor.symm m) idx ≠ some i) :
    (L₁ ++ n :: L₂).foldl (step d (fun _ b => b) idx upd) r i = upd (u.rowMajor.symm n) := by
  rw [List.foldl_append, List.foldl_cons, foldl_miss d _ idx upd L₂ _ i h₂, step_some d _ idx upd _ n i hn, if_pos rfl]

end Fold

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Overwriting entries of a vector of N by E updates (`x.at[idx].set(upd)`): where exactly one update's word is `p`,
    entry `p` is that update. -/
theorem scatter_set_vec_hit {α : Type} {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → α) (idx : (⟨2, ![E, 1]⟩ : Shape).Idx → BitVec 32)
    (upd : (⟨1, ![E]⟩ : Shape).Idx → α) (p : Fin N) (e : Fin E)
    (he : (idx (ix2 e 0)).toInt = (p.val : Int))
    (huniq : ∀ e' : Fin E, (idx (ix2 e' 0)).toInt = (p.val : Int) → e' = e) :
    Host.scatter d (fun _ b => b) x idx upd (ix1 p) = upd (ix1 e) := by
  rw [scatter_eq_foldl]
  -- the number of update e in row-major order, and the list of update numbers split around it
  let n₀ : Fin (⟨1, ![E]⟩ : Shape).numel := (⟨1, ![E]⟩ : Shape).rowMajor (ix1 e)
  have hback : (⟨1, ![E]⟩ : Shape).rowMajor.symm n₀ = ix1 e := Equiv.symm_apply_apply _ _
  obtain ⟨L₁, L₂, hL⟩ := List.append_of_mem (List.mem_finRange n₀)
  have hnd : (L₁ ++ n₀ :: L₂).Nodup := hL ▸ List.nodup_finRange _
  have hn₀ : n₀ ∉ L₂ := (List.nodup_cons.mp (List.nodup_append.mp hnd).2.1).1
  rw [hL, foldl_last d idx upd L₁ L₂ n₀ x (ix1 p), hback]
  · rw [hback]
    exact (vec_lands d h1 h2 h3 h4 idx (ix1 e) p).mpr he
  · -- an update after e that landed on p would be e again
    intro m hm hland
    have hw := (vec_lands d h1 h2 h3 h4 idx _ p).mp hland
    have hm0 : (⟨1, ![E]⟩ : Shape).rowMajor.symm m = ix1 e := (eq_ix1 _).trans (congrArg ix1 (huniq _ hw))
    have : m = n₀ := by rw [← Equiv.apply_symm_apply (⟨1, ![E]⟩ : Shape).rowMajor m, hm0]
    exact hn₀ (this ▸ hm)

/-- Where no update's word is `p`, entry `p` is the operand's. -/
theorem scatter_set_vec_miss {α : Type} {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → α) (idx : (⟨2, ![E, 1]⟩ : Shape).Idx → BitVec 32)
    (upd : (⟨1, ![E]⟩ : Shape).Idx → α) (p : Fin N)
    (hno : ∀ e : Fin E, (idx (ix2 e 0)).toInt ≠ (p.val : Int)) :
    Host.scatter d (fun _ b => b) x idx upd (ix1 p) = x (ix1 p) := by
  rw [scatter_eq_foldl]
  exact foldl_miss d _ idx upd _ x (ix1 p) fun m _ hland => hno _ ((vec_lands d h1 h2 h3 h4 idx _ p).mp hland)

/-! ## A gather of single entries out of a vector -/

section Gather
variable {N E : Nat} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
include h1 h2 h3 h4 h5 h6 h7

/-- The slice's start on the operand's one axis is word `j 0`, read signed and clamped into `[0, N - 1]`. -/
private theorem gather_start (idx : (⟨2, ![E, 1]⟩ : Shape).Idx → BitVec 32) (j : (⟨1, ![E]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- No batching axes: no batching coordinate. -/
private theorem gather_batch (j : (⟨1, ![E]⟩ : Shape).Idx) (a : Fin 1) : d.batchCoord j a = 0 :=
  d.batchCoord_eq_zero j a (by rw [h3]; exact List.not_mem_nil)

/-- The operand's one axis is collapsed: no offset coordinate. -/
private theorem gather_off (j : (⟨1, ![E]⟩ : Shape).Idx) : d.offCoord j 0 = 0 :=
  d.offCoord_eq_zero j 0 fun h => ((d.mem_sKept 0).mp h).1 (by rw [h2]; exact List.mem_singleton.mpr rfl)

end Gather

/-- Gathering E entries out of a vector of N: entry e is the operand's entry n when word e, read signed, is n. -/
theorem gather_vec {α : Type} {N E : Nat} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : (⟨2, ![E, 1]⟩ : Shape).Idx → BitVec 32) (e : Fin E) (n : Fin N)
    (hn : (idx (ix2 e 0)).toInt = (n.val : Int)) : Host.gather d x idx (ix1 e) = x (ix1 n) := by
  -- the clamped start is n (n is an entry of the operand), and nothing is added to it
  have f0 : d.start (ix1 e) idx 0 + d.batchCoord (ix1 e) 0 + d.offCoord (ix1 e) 0 = n.val := by
    rw [gather_start d h1 h2 h3 h4 h5 h6 h7, gather_batch d h1 h2 h3 h4 h5 h6 h7, gather_off d h1 h2 h3 h4 h5 h6 h7]
    show min (idx (ix2 e 0)).toInt.toNat (N - 1) + 0 + 0 = n.val
    rw [hn, Int.toNat_natCast]
    have := n.isLt
    omega
  unfold Host.gather
  congr 1
  funext a
  apply Fin.ext
  match a with
  | ⟨0, _⟩ => exact f0

/-! ## A row sum of an integer matrix, and the count it gives on a widened mask -/

/-- A set fold of word addition from zero is the sum. -/
private theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- Summing an [R, C] integer matrix along its columns, from 0: entry r is the sum of row r. -/
theorem reduce_rows_add {R C : Nat} (h : (⟨2, ![R, C]⟩ : Shape).ReducesTo [1] ⟨1, ![R]⟩) (hu : 0 < (⟨0, ![]⟩ : Shape).numel)
    (x : (⟨2, ![R, C]⟩ : Shape).Idx → BitVec 32) (z : (⟨0, ![]⟩ : Shape).Idx → BitVec 32) (hz : ∀ i, z i = 0#32) (r : Fin R) :
    Host.reduce IntOp.addi x z h hu (ix1 r) = ∑ c : Fin C, x (ix2 r c) := by
  rw [Host.reduce_eq_fold, hz, fold_addi_eq_sum]
  -- the indices that drop to r are row r's: (r, c) for each column c
  have hdrop : ∀ i : (⟨2, ![R, C]⟩ : Shape).Idx, h.drop i = ix1 r ↔ i 0 = r := by
    intro i
    have hv : (h.drop i 0 : Nat) = i 0 := Shape.ReducesTo.drop_apply_val h i 0
    constructor
    · intro e; rw [e] at hv; exact Fin.ext hv.symm
    · intro e; funext b; obtain rfl : b = 0 := Subsingleton.elim _ _; exact Fin.ext (by rw [hv, e]; rfl)
  refine Finset.sum_nbij' (fun i => i 1) (fun c => ix2 r c) ?_ ?_ ?_ ?_ ?_
  · intro i _; exact Finset.mem_univ _
  · intro c _; exact Finset.mem_filter.mpr ⟨Finset.mem_univ _, (hdrop _).mpr rfl⟩
  · intro i hi
    have h0 := (hdrop i).mp (Finset.mem_filter.mp hi).2
    exact (congrArg (fun a => ix2 a (i 1)) h0.symm).trans (eq_ix2 i).symm
  · intro c _; rfl
  · intro i hi
    have h0 := (hdrop i).mp (Finset.mem_filter.mp hi).2
    exact congrArg x ((eq_ix2 i).trans (congrArg (fun a => ix2 a (i 1)) h0))

/-- A row of widened mask bits sums, without wrapping, to the number of set bits in the row. -/
theorem sum_mask_toNat {R C : Nat} (hC : C < 2 ^ 32) (x : (⟨2, ![R, C]⟩ : Shape).Idx → BitVec 32)
    (mask : Fin R → Fin C → BitVec 1) (r : Fin R) (hx : ∀ c : Fin C, x (ix2 r c) = (mask r c).setWidth 32) :
    (∑ c : Fin C, x (ix2 r c)).toNat = (Finset.univ.filter fun c : Fin C => mask r c = 1#1).card := by
  have hval : ∀ c : Fin C, (x (ix2 r c)).toNat = if mask r c = 1#1 then 1 else 0 := fun c => by
    rw [hx]; exact StableHlo.Predicate.toNat_setWidth_bit _
  have hsum : ∑ c : Fin C, (x (ix2 r c)).toNat = (Finset.univ.filter fun c : Fin C => mask r c = 1#1).card := by
    rw [Finset.card_filter]
    exact Finset.sum_congr rfl fun c _ => hval c
  rw [← fold_addi_eq_sum, StableHlo.Predicate.toNat_fold_addi _ _ (by
    rw [hsum]; exact lt_of_le_of_lt (Finset.card_le_univ _) (by simpa using hC)), hsum]

/-! ## An inclusive running sum as a padded window reduction -/

/-- A left fold of word addition is the start plus the sum of the list. -/
private theorem foldl_addi_eq {ι : Type} (L : List ι) (g : ι → BitVec 32) (v : BitVec 32) :
    L.foldl (fun r n => IntOp.addi r (g n)) v = v + (L.map g).sum := by
  induction L generalizing v with
  | nil => exact (add_zero v).symm
  | cons n L ih =>
    rw [List.foldl_cons, ih, List.map_cons, List.sum_cons]
    show v + g n + _ = v + (g n + _)
    rw [add_assoc]

/-- A rank-1 index is its coordinate. -/
private def idxEquiv1 (n : Nat) : (⟨1, ![n]⟩ : Shape).Idx ≃ Fin n where
  toFun i := i 0
  invFun k := ix1 k
  left_inv i := (eq_ix1 i).symm
  right_inv _ := rfl

/-- A sum of entries kept where a condition holds, zero elsewhere, is the sum over the set where it holds. -/
private theorem sum_ite_zero {ι : Type} (S : Finset ι) (p : ι → Prop) [DecidablePred p] (f : ι → BitVec 32) :
    (∑ k ∈ S, if p k then f k else 0#32) = ∑ k ∈ S.filter p, f k :=
  (Finset.sum_filter p f).symm

/-- An inclusive running sum of E integers, written as a window of E at stride 1 over the vector padded E - 1 low:
    window j covers padded positions j … j + E - 1, whose positions E - 1 … j + E - 1 are the entries 0 … j, so
    entry j of the result is the sum of the entries up to j. -/
theorem cumsum_window {E : Nat} (h : (⟨1, ![E]⟩ : Shape).ReduceWindows (![E] : Fin 1 → Nat) ![1] ![E - 1] ![0] ⟨1, ![E]⟩)
    (hu : 0 < (⟨0, ![]⟩ : Shape).numel)
    (x : (⟨1, ![E]⟩ : Shape).Idx → BitVec 32) (z : (⟨0, ![]⟩ : Shape).Idx → BitVec 32) (hz : ∀ i, z i = 0#32) (j : Fin E) :
    Host.reduceWindow IntOp.addi ![E] ![1] ![E - 1] ![0] x z h hu (ix1 j)
      = ∑ a ∈ Finset.univ.filter (fun a : Fin E => a.val ≤ j.val), x (ix1 a) := by
  have hj := j.isLt
  -- the fold of additions from zero is the sum over the window's positions k = 0 … E - 1
  unfold Host.reduceWindow
  dsimp only
  rw [hz, foldl_addi_eq, BitVec.zero_add, ← Fin.sum_univ_def]
  rw [← Equiv.sum_comp ((⟨1, ![E]⟩ : Shape).rowMajor), ← Equiv.sum_comp (idxEquiv1 E).symm]
  simp only [Equiv.symm_apply_apply]
  -- position k reads entry j + k - (E - 1) when E - 1 ≤ j + k, and the padding, zero, below that
  refine (Finset.sum_congr rfl (g := fun k : Fin E =>
      if E - 1 ≤ j.val + k.val then x (ix1 ⟨min (j.val + k.val - (E - 1)) j.val, by omega⟩) else 0#32)
      fun k _ => ?_).trans ?_
  · have hk := k.isLt
    by_cases hc : E - 1 ≤ j.val + k.val
    · rw [if_pos hc, dif_pos]
      · congr 1
        funext a
        obtain rfl : a = 0 := Subsingleton.elim _ _
        apply Fin.ext
        show j.val * 1 + k.val - (E - 1) = min (j.val + k.val - (E - 1)) j.val
        omega
      · intro a
        obtain rfl : a = 0 := Subsingleton.elim _ _
        show E - 1 ≤ j.val * 1 + k.val ∧ j.val * 1 + k.val - (E - 1) < E
        omega
    · rw [if_neg hc]
      refine dif_neg fun hin => hc ?_
      have h0 := (hin 0).1
      change E - 1 ≤ j.val * 1 + k.val at h0
      omega
  · -- the positions that read an entry correspond one to one to the entries up to j
    rw [sum_ite_zero]
    refine Finset.sum_nbij' (fun k : Fin E => (⟨min (j.val + k.val - (E - 1)) j.val, by omega⟩ : Fin E))
      (fun a : Fin E => (⟨min (a.val + (E - 1) - j.val) (E - 1), by omega⟩ : Fin E)) ?_ ?_ ?_ ?_ ?_
    · intro k _
      exact Finset.mem_filter.mpr ⟨Finset.mem_univ _, Nat.min_le_right _ _⟩
    · intro a ha
      have ha' : a.val ≤ j.val := (Finset.mem_filter.mp ha).2
      refine Finset.mem_filter.mpr ⟨Finset.mem_univ _, ?_⟩
      show E - 1 ≤ j.val + min (a.val + (E - 1) - j.val) (E - 1)
      omega
    · intro k hk
      have hk' : E - 1 ≤ j.val + k.val := (Finset.mem_filter.mp hk).2
      have := k.isLt
      apply Fin.ext
      show min (min (j.val + k.val - (E - 1)) j.val + (E - 1) - j.val) (E - 1) = k.val
      omega
    · intro a ha
      have ha' : a.val ≤ j.val := (Finset.mem_filter.mp ha).2
      apply Fin.ext
      show min (j.val + min (a.val + (E - 1) - j.val) (E - 1) - (E - 1)) j.val = a.val
      omega
    · intro k _
      rfl

/-! ## Two vectors laid end to end, and a block of a vector -/

theorem concat_head {α : Type} {E : Nat} (a : (⟨1, ![1]⟩ : Shape).Idx → α) (b : (⟨1, ![E]⟩ : Shape).Idx → α)
    (h : Shape.Concatenates [(⟨1, ![1]⟩ : Shape), ⟨1, ![E]⟩] ⟨1, ![E + 1]⟩ 0) :
    concatenate ⟨1, ![E + 1]⟩ 0 [⟨⟨1, ![1]⟩, a⟩, ⟨⟨1, ![E]⟩, b⟩] h (ix1 0) = a (ix1 0) := by
  refine concatenate_pair_apply_left 0 a b h (ix1 0) rfl (ix1 0) ?_
  intro c
  obtain rfl : c = 0 := Subsingleton.elim _ _
  rfl

theorem concat_tail {α : Type} {E : Nat} (a : (⟨1, ![1]⟩ : Shape).Idx → α) (b : (⟨1, ![E]⟩ : Shape).Idx → α)
    (h : Shape.Concatenates [(⟨1, ![1]⟩ : Shape), ⟨1, ![E]⟩] ⟨1, ![E + 1]⟩ 0) (k : Fin E) :
    concatenate ⟨1, ![E + 1]⟩ 0 [⟨⟨1, ![1]⟩, a⟩, ⟨⟨1, ![E]⟩, b⟩] h (ix1 ⟨k.val + 1, Nat.succ_lt_succ k.isLt⟩) = b (ix1 k) := by
  refine concatenate_pair_apply_right 0 a b h _ rfl rfl (ix1 k) ?_ ?_
  · intro c hc
    exact absurd (Subsingleton.elim _ _) hc
  · rfl

/-- The block of K entries of a vector at offset o: entry k is the vector's entry o + k. -/
theorem slice_vec {α : Type} {M K : Nat} (o : Nat) (h : (⟨1, ![M]⟩ : Shape).Slices ![o] ⟨1, ![K]⟩)
    (x : (⟨1, ![M]⟩ : Shape).Idx → α) (k : Fin K) (hk : o + k.val < M) :
    extractStridedSlice ⟨1, ![K]⟩ ![o] x h (ix1 k) = x (ix1 ⟨o + k.val, hk⟩) := by
  unfold extractStridedSlice
  congr 1
  funext a
  match a with
  | ⟨0, _⟩ => rfl

end Cert.HostRead

end
-- ==== Proof.RefValue.lean ====
/-
  The reference's result is the specification's `G` of its arguments: the weighted Gram matrix by one host
  contraction, the diagonal values by a host contraction, the bias, the outlined softplus and the literal, and a
  scatter that sets entry (n, n) to the n-th diagonal value for n = 0 … 8191 (the index pairs are the iota twice,
  the negative-index wrap selecting nothing).
-/
import proofs.«154148_j51350628991246_1_alg».proof.Proof.Gen.ReferenceIdeal.Read
import proofs.«154148_j51350628991246_1_alg».proof.Proof.Spec
import proofs.«154148_j51350628991246_1_alg».proof.Proof.LibHostRead
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StableHlo.Predicate

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-! ## The diagonal column -/

/-- Row `n`'s pre-activation: the contraction with the one column, plus the bias. -/
theorem v7_read (x0 : FVec Ideal S8192x512 .f32) (x2 : FVec Ideal S512x1 .f32) (x3 : FVec Ideal S1 .f32) (n : Fin 8192) :
    val_main_v7 (F := Ideal) x0 x2 x3 (ix2 n (0 : Fin 1)) = Cert.Spec.pre x0 x2 x3 n := by
  rw [val_main_v7_apply, val_main_v4_apply, val_main_v6_apply, val_main_v5_apply]
  unfold Cert.Spec.pre
  rw [Ideal.addf_def]
  have e1 : ∀ k : Fin 512, lidx_main_v4 (ix2 n (0 : Fin 1)) k = ix2 n k := fun k => funext fun a => by
    match a with
    | ⟨0, _⟩ => rfl
    | ⟨1, _⟩ => rfl
  have e2 : ∀ k : Fin 512, ridx_main_v4 (ix2 n (0 : Fin 1)) k = ix2 k (0 : Fin 1) := fun k => funext fun a => by
    match a with
    | ⟨0, _⟩ => rfl
    | ⟨1, _⟩ => rfl
  have e3 : idx_main_v5 (idx_main_v6 (ix2 n (0 : Fin 1))) = ix1 (0 : Fin 1) := funext fun a => by
    match a with
    | ⟨0, _⟩ => rfl
  simp only [e1, e2, e3]

/-- On the extended reals a value never differs from itself. -/
theorem cmp_une_self (a : EReal) : Ideal.cmp .une a a = 0#1 := by
  simp [Ideal.cmp]

/-- Row `n`'s diagonal value, as the [8192, 1] column holds it: the stable softplus of the pre-activation plus the
    literal (the comparison of the value with itself is false, so the main branch is taken). -/
theorem v10_read (x0 : FVec Ideal S8192x512 .f32) (x2 : FVec Ideal S512x1 .f32) (x3 : FVec Ideal S1 .f32) (n : Fin 8192) :
    val_main_v10 (F := Ideal) x0 x2 x3 (ix2 n (0 : Fin 1)) = Cert.Spec.dval x0 x2 x3 n := by
  simp only [val_main_v10_apply, val_main_v8_apply, val_main_call0_v4_apply, val_main_call0_v3_apply,
    val_main_call0_v2_apply, val_main_call0_cst_apply, val_main_call0_v6_apply, val_main_call0_v5_apply,
    val_main_call0_v11_apply, val_main_call0_v1_apply, val_main_call0_v0_apply, val_main_call0_v10_apply,
    val_main_call0_v9_apply, val_main_call0_v8_apply, val_main_call0_v7_apply, val_main_v9_apply,
    val_main_cst_apply, v7_read]
  unfold Cert.Spec.dval Cert.Spec.sp
  generalize Cert.Spec.pre x0 x2 x3 n = a
  simp only [Ideal.ofBits_def, Ideal.ofBits_zero_f32, Ideal.subf_def, sub_zero, Ideal.cmpf_def, cmp_une_self,
    select_zero, Ideal.addf_def, Ideal.maximumf_def, Ideal.hostUnary_log1p_def, Ideal.hostUnary_exp_def,
    Ideal.hostNegf_def, Ideal.negf_def, Ideal.hostAbsf_def, Ideal.absf_def]

/-- The reshaped column at `n` is row `n`'s diagonal value. -/
theorem v11_read (x0 : FVec Ideal S8192x512 .f32) (x2 : FVec Ideal S512x1 .f32) (x3 : FVec Ideal S1 .f32) (n : Fin 8192) :
    val_main_v11 (F := Ideal) x0 x2 x3 (ix1 n) = Cert.Spec.dval x0 x2 x3 n := by
  rw [val_main_v11_apply]
  have e : idx_main_v11 (ix1 n) = ix2 n (0 : Fin 1) := funext fun a => by
    match a with
    | ⟨0, _⟩ => exact Fin.ext (Nat.div_one _)
    | ⟨1, _⟩ => rfl
  rw [e, v10_read]

/-! ## The weighted Gram matrix -/

/-- Entry `(r, s)` of the host contraction is the weighted Gram sum of rows `r` and `s`. -/
theorem v3_read (x0 : FVec Ideal S8192x512 .f32) (x1 : FVec Ideal S512 .f32) (r s : Fin 8192) :
    val_main_v3 (F := Ideal) x0 x1 (ix2 r s) = Cert.Spec.gram x0 x1 r s := by
  rw [val_main_v3_apply]
  unfold Cert.Spec.gram
  refine Finset.sum_congr rfl fun k _ => ?_
  rw [val_main_v2_apply, val_main_v1_apply, val_main_v0_apply, Ideal.mulf_def]
  have e1 : lidx_main_v3 (ix2 r s) k = ix2 r k := funext fun a => by
    match a with
    | ⟨0, _⟩ => rfl
    | ⟨1, _⟩ => rfl
  have e2 : ridx_main_v3 (ix2 r s) k = ix2 s k := funext fun a => by
    match a with
    | ⟨0, _⟩ => rfl
    | ⟨1, _⟩ => rfl
  have e3 : idx_main_v0 (idx_main_v1 (ix2 r k)) = ix1 k := funext fun a => by
    match a with
    | ⟨0, _⟩ => rfl
  rw [e1, e2, e3]

/-! ## The index pairs -/

/-- A row number is never negative as a 32-bit word, so the wrap of negative indices leaves it. -/
theorem wrap_word (n : Fin 8192) :
    Scalar.select (IntOp.cmpi .slt (BitVec.ofNat 32 n.val) 0#32) (IntOp.addi (BitVec.ofNat 32 n.val) 8192#32)
      (BitVec.ofNat 32 n.val) = BitVec.ofNat 32 n.val := by
  have h : ¬ IntOp.cmpi .slt (BitVec.ofNat 32 n.val) 0#32 = 1#1 := by
    intro h
    have := (StableHlo.Predicate.slt_ofNat_iff n.val 0 (by have := n.isLt; omega) (by omega)).mp h
    omega
  exact if_neg h

/-- The first index column at row `n` is the word `n`. -/
theorem v23_read (n : Fin 8192) : val_main_v23 (F := Ideal) (ix2 n (0 : Fin 1)) = BitVec.ofNat 32 n.val := by
  rw [val_main_v23_apply, val_main_v17_apply, val_main_v14_apply, val_main_v16_apply, val_main_v15_apply,
    val_main_c_0_apply, val_main_v13_apply, val_main_c_apply]
  simp only [val_main_v12_apply]
  exact wrap_word n

/-- The second index column at row `n` is the word `n`. -/
theorem v24_read (n : Fin 8192) : val_main_v24 (F := Ideal) (ix2 n (0 : Fin 1)) = BitVec.ofNat 32 n.val := by
  rw [val_main_v24_apply, val_main_v22_apply, val_main_v19_apply, val_main_v21_apply, val_main_v20_apply,
    val_main_c_2_apply, val_main_v18_apply, val_main_c_1_apply]
  simp only [val_main_v12_apply]
  exact wrap_word n

/-- The index table's row `n` is the pair `(n, n)`: its first word. -/
theorem v25_read0 (n : Fin 8192) : val_main_v25 (F := Ideal) (ix2 n (0 : Fin 2)) = BitVec.ofNat 32 n.val := by
  unfold val_main_v25
  rw [concatenate_pair_apply_left (1 : Fin S8192x2.rank) _ _ concatenates_S8192x1_S8192x1_S8192x2_d1
    (ix2 n (0 : Fin 2)) rfl (ix2 n (0 : Fin 1)) (fun b => by
      match b with
      | ⟨0, _⟩ => rfl
      | ⟨1, _⟩ => rfl)]
  exact v23_read n

/-- Its second word. -/
theorem v25_read1 (n : Fin 8192) : val_main_v25 (F := Ideal) (ix2 n (1 : Fin 2)) = BitVec.ofNat 32 n.val := by
  unfold val_main_v25
  rw [concatenate_pair_apply_right (1 : Fin S8192x2.rank) _ _ concatenates_S8192x1_S8192x1_S8192x2_d1
    (ix2 n (1 : Fin 2)) rfl rfl (ix2 n (0 : Fin 1)) (fun b hb => by
      match b with
      | ⟨0, _⟩ => rfl
      | ⟨1, _⟩ => exact absurd rfl hb) rfl]
  exact v24_read n

/-! ## The scatter, read at an entry -/

/-- An update lands at `i` exactly when, on every axis, its start plus its window coordinate is `i`'s coordinate. -/
theorem lands_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h, Option.some.injEq]
    constructor
    · rintro rfl a
      have := (h a).1
      show _ = (((d.start j idx a + d.window j a).toNat : Nat) : Int)
      omega
    · intro hi
      funext a
      apply Fin.ext
      have := hi a
      show (d.start j idx a + d.window j a).toNat = (i a).val
      omega
  · rw [dif_neg h]
    constructor
    · intro hi; cases hi
    · intro hi
      exact absurd (fun a => by have := hi a; have := (i a).isLt; constructor <;> omega) h

/-- Update `j`'s start on the row axis is the first word of index pair `j`, read signed. -/
theorem start_row (idx : IVec S8192x2 32) (j : S8192.Idx) :
    scatter_S8192x8192_S8192x2_S8192_n_01_01_1.start j idx 0 = (idx (ix2 (j 0) (0 : Fin 2))).toInt := by
  unfold ScatterDims.start
  rw [dif_pos (by decide)]
  congr 2
  funext b
  match b with
  | ⟨0, _⟩ => rfl
  | ⟨1, _⟩ => rfl

/-- Its start on the column axis is the second word. -/
theorem start_col (idx : IVec S8192x2 32) (j : S8192.Idx) :
    scatter_S8192x8192_S8192x2_S8192_n_01_01_1.start j idx 1 = (idx (ix2 (j 0) (1 : Fin 2))).toInt := by
  unfold ScatterDims.start
  rw [dif_pos (by decide)]
  congr 2
  funext b
  match b with
  | ⟨0, _⟩ => rfl
  | ⟨1, _⟩ => rfl

/-- Both operand axes are inserted: an update is one entry, with no window coordinate. -/
theorem window_zero (j : S8192.Idx) (a : Fin 2) : scatter_S8192x8192_S8192x2_S8192_n_01_01_1.window j a = 0 := by
  match a with
  | ⟨0, _⟩ => rfl
  | ⟨1, _⟩ => rfl

section Pairs
variable (idx : IVec S8192x2 32)
  (h0 : ∀ n : Fin 8192, idx (ix2 n (0 : Fin 2)) = BitVec.ofNat 32 n.val)
  (h1 : ∀ n : Fin 8192, idx (ix2 n (1 : Fin 2)) = BitVec.ofNat 32 n.val)
include h0 h1

/-- With index pair `n` the pair `(n, n)`, update `j` lands on entry `(r, s)` exactly when `j = r` and `j = s`. -/
theorem lands_pair (j : S8192.Idx) (r s : Fin 8192) :
    scatter_S8192x8192_S8192x2_S8192_n_01_01_1.resultIdx? j idx = some (ix2 r s) ↔ (j 0).val = r.val ∧ (j 0).val = s.val := by
  have hj : (j 0).val < 8192 := (j 0).isLt
  have t0 : (idx (ix2 (j 0) (0 : Fin 2))).toInt = ((j 0).val : Int) :=
    (congrArg BitVec.toInt (h0 (j 0))).trans (StableHlo.Predicate.toInt_ofNat_small _ (by omega))
  have t1 : (idx (ix2 (j 0) (1 : Fin 2))).toInt = ((j 0).val : Int) :=
    (congrArg BitVec.toInt (h1 (j 0))).trans (StableHlo.Predicate.toInt_ofNat_small _ (by omega))
  rw [lands_iff]
  constructor
  · intro h
    have a0 := h 0
    have a1 := h 1
    rw [start_row, window_zero, t0] at a0
    rw [start_col, window_zero, t1] at a1
    have b0 : ((j 0).val : Int) + ((0 : Nat) : Int) = (r.val : Int) := a0
    have b1 : ((j 0).val : Int) + ((0 : Nat) : Int) = (s.val : Int) := a1
    constructor <;> omega
  · rintro ⟨e0, e1⟩ a
    match a with
    | ⟨0, _⟩ =>
      show scatter_S8192x8192_S8192x2_S8192_n_01_01_1.start j idx 0 + _ = (r.val : Int)
      rw [start_row, window_zero, t0]; omega
    | ⟨1, _⟩ =>
      show scatter_S8192x8192_S8192x2_S8192_n_01_01_1.start j idx 1 + _ = (s.val : Int)
      rw [start_col, window_zero, t1]; omega

/-- The overwriting scatter of 8192 values at the index pairs `(n, n)`: a diagonal entry `(r, r)` holds value `r` (the one
    update that lands there), any other entry the operand's. -/
theorem scatter_diag_read {α : Type} (x : S8192x8192.Idx → α) (upd : S8192.Idx → α) (r s : Fin 8192) :
    Host.scatter scatter_S8192x8192_S8192x2_S8192_n_01_01_1 (fun _ b => b) x idx upd (ix2 r s)
      = if r.val = s.val then upd (ix1 r) else x (ix2 r s) := by
  by_cases hrs : r.val = s.val
  · rw [if_pos hrs]
    -- the number of update r in row-major order, and the update numbers split around it
    have hback : S8192.rowMajor.symm (S8192.rowMajor (ix1 r)) = ix1 r := Equiv.symm_apply_apply _ _
    obtain ⟨L₁, L₂, hL⟩ := List.append_of_mem (List.mem_finRange (S8192.rowMajor (ix1 r)))
    have hnd : (L₁ ++ S8192.rowMajor (ix1 r) :: L₂).Nodup := hL ▸ List.nodup_finRange _
    have hn₀ : S8192.rowMajor (ix1 r) ∉ L₂ := (List.nodup_cons.mp (List.nodup_append.mp hnd).2.1).1
    have hl := Cert.HostRead.foldl_last scatter_S8192x8192_S8192x2_S8192_n_01_01_1 idx upd L₁ L₂
      (S8192.rowMajor (ix1 r)) x (ix2 r s)
      (by rw [hback]; exact (lands_pair idx h0 h1 (ix1 r) r s).mpr ⟨rfl, hrs⟩)
      (by
        -- an update after r that landed on (r, s) would be r again
        intro m hm hland
        have hw := ((lands_pair idx h0 h1 _ r s).mp hland).1
        have hm0 : S8192.rowMajor.symm m = ix1 r := (eq_ix1 _).trans (congrArg ix1 (Fin.ext hw))
        have : m = S8192.rowMajor (ix1 r) := by rw [← Equiv.apply_symm_apply S8192.rowMajor m, hm0]
        exact hn₀ (this ▸ hm))
    rw [← hL, hback] at hl
    exact hl
  · rw [if_neg hrs]
    -- an update landing on (r, s) would make r and s one row number
    have hm := Cert.HostRead.foldl_miss scatter_S8192x8192_S8192x2_S8192_n_01_01_1 (fun _ b => b) idx upd
      (List.finRange S8192.numel) x (ix2 r s)
      (fun m _ hland => hrs (((lands_pair idx h0 h1 _ r s).mp hland).1.symm.trans ((lands_pair idx h0 h1 _ r s).mp hland).2))
    exact hm

end Pairs

/-! ## The whole result -/

/-- The reference's last stage, at the ideal instance, is `G` of the four arguments. -/
theorem ref_is_G (x0 : FVec Ideal S8192x512 .f32) (x1 : FVec Ideal S512 .f32) (x2 : FVec Ideal S512x1 .f32) (x3 : FVec Ideal S1 .f32) :
    val_main_v26 (F := Ideal) x0 x1 x2 x3 = Cert.Spec.G x0 x1 x2 x3 := by
  funext i
  obtain ⟨r, s, rfl⟩ : ∃ r s : Fin 8192, i = ix2 r s := ⟨i 0, i 1, eq_ix2 i⟩
  unfold val_main_v26
  rw [scatter_diag_read (val_main_v25 (F := Ideal)) v25_read0 v25_read1]
  unfold Cert.Spec.G
  rw [Cert.Spec.cov_ix2]
  unfold Cert.Spec.entry
  rw [Cert.Spec.dcol_ix2, v11_read, v3_read]

end Cert.ReferenceIdeal.RefValue

end
-- ==== Proof.lean ====
/-
  The certificate. The kernel computes the weighted Gram matrix `x · diag(cov_kernel) · xᵀ` tile by tile, with its
  diagonal replaced by `softplus (x · var_kernel + var_bias) + c`, in two kernel regions: the diagonal values first,
  one row tile at a time, then the 8 × 8 tiles of the result, a diagonal tile selecting the diagonal values where
  row = column. The reference computes the Gram matrix by one host contraction, the same diagonal values on the host,
  and sets the diagonal by a scatter. On the extended reals both are the specification's `G`: the contraction's
  factors stand in the same order on both sides, and the stable softplus is spelt alike (the kernel's `0 - |a|` is
  the host's `-|a|`, and the test `a ≠ a` selects nothing where nothing is unordered), so the two results are equal
  entry by entry with no appeal to finiteness.
  The frames: each kernel program runs as its two regions in order (the second reads `x` through two windows that
  share its buffer by halves); the reference's frame is its run with the result dropped. The idealization rewrote
  nothing, so `preserves` is trivial.
-/
import proofs.«154148_j51350628991246_1_alg».proof.Defs
import proofs.«154148_j51350628991246_1_alg».proof.Proof.Gen.Kernel
import proofs.«154148_j51350628991246_1_alg».proof.Proof.Gen.KernelIdeal
import proofs.«154148_j51350628991246_1_alg».proof.Proof.Gen.ReferenceIdeal
import proofs.«154148_j51350628991246_1_alg».proof.Proof.Gen.Pre_finite_inputs
import proofs.«154148_j51350628991246_1_alg».proof.Proof.Gen.ReferenceIdeal.Run
import proofs.«154148_j51350628991246_1_alg».proof.Proof.Gen.ReferenceIdeal.Read
import proofs.«154148_j51350628991246_1_alg».proof.Proof.FrameK.Frame
import proofs.«154148_j51350628991246_1_alg».proof.Proof.FrameKI.Frame
import proofs.«154148_j51350628991246_1_alg».proof.Proof.FrameKI.Final
import proofs.«154148_j51350628991246_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ
theorem frame_kernelIdeal : Cert.frame_KernelIdeal := fun m ρ _ => Cert.KernelIdeal.Frame.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at `G` of arguments that agree. -/
theorem algebraic : Cert.algebraic_KernelIdeal_ReferenceIdeal := by
  intro m ρ m' ρ' _ hagree
  refine ⟨_, Cert.KernelIdeal.Frame.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_is_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
